-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S11008x4096 : Shape := ⟨2, ![11008, 4096]⟩
abbrev S4096x11008 : Shape := ⟨2, ![4096, 11008]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S8x32x4096 .f32) (main_arg1 : FVec F S11008x4096 .f32) (main_arg2 : FVec F S11008x4096 .f32) (main_arg3 : FVec F S4096x11008 .f32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S8x32x4096 : Shape := ⟨3, ![8, 32, 4096]⟩
abbrev S11008x4096 : Shape := ⟨2, ![11008, 4096]⟩
abbrev S4096x11008 : Shape := ⟨2, ![4096, 11008]⟩
abbrev S256x4096 : Shape := ⟨2, ![256, 4096]⟩
abbrev S_ : Shape := ⟨0, ![]⟩
abbrev S256x11008 : Shape := ⟨2, ![256, 11008]⟩
abbrev S256x256 : Shape := ⟨2, ![256, 256]⟩
abbrev S256 : Shape := ⟨1, ![256]⟩
abbrev S256x1 : Shape := ⟨2, ![256, 1]⟩
abbrev S128x11008 : Shape := ⟨2, ![128, 11008]⟩
abbrev S256x128 : Shape := ⟨2, ![256, 128]⟩
abbrev S128 : Shape := ⟨1, ![128]⟩
abbrev S128x1 : Shape := ⟨2, ![128, 1]⟩

abbrev nBuf : Space → Nat
  | .hbm => 50
  | .vmem => 12
  | .smem => 0
  | _ => 0

abbrev bufTy : (tb : Table) → Fin (tcTables nBuf tb) → BufTy
  | .hbm, ⟨0, _⟩ => ⟨S8x32x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S256x4096, .f32⟩
  | .hbm, ⟨13, _⟩ => ⟨S256x4096, .f32⟩
  | .hbm, ⟨14, _⟩ => ⟨S256x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S256x4096, .bf16⟩
  | .hbm, ⟨26, _⟩ => ⟨S256x11008, .f32⟩
  | .hbm, ⟨27, _⟩ => ⟨S256x11008, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x11008, .f32⟩
  | .hbm, ⟨35, _⟩ => ⟨S256x11008, .f32⟩
  | .hbm, ⟨36, _⟩ => ⟨S256x11008, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S256x11008, .f32⟩
  | .hbm, ⟨41, _⟩ => ⟨S256x11008, .f32⟩
  | .hbm, ⟨42, _⟩ => ⟨S_, .f32⟩
  | .hbm, ⟨43, _⟩ => ⟨S256x11008, .f32⟩
  | .hbm, ⟨44, _⟩ => ⟨S256x11008, .f32⟩
  | .hbm, ⟨45, _⟩ => ⟨S256x11008, .f32⟩
  | .hbm, ⟨46, _⟩ => ⟨S256x11008, .f32⟩
  | .hbm, ⟨47, _⟩ => ⟨S256x11008, .bf16⟩
  | .hbm, ⟨48, _⟩ => ⟨S256x4096, .f32⟩
  | .hbm, ⟨49, _⟩ => ⟨S8x32x4096, .f32⟩
  | .local _ .vmem, ⟨0, _⟩ => ⟨S256x4096, .bf16⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x256, .f32⟩
  | .local _ .vmem, ⟨6, _⟩ => ⟨S256x256, .f32⟩
  | .local _ .vmem, ⟨7, _⟩ => ⟨S256x11008, .bf16⟩
  | .local _ .vmem, ⟨8, _⟩ => ⟨S128x11008, .f32⟩
  | .local _ .vmem, ⟨9, _⟩ => ⟨S128x11008, .f32⟩
  | .local _ .vmem, ⟨10, _⟩ => ⟨S256x128, .f32⟩
  | .local _ .vmem, ⟨11, _⟩ => ⟨S256x128, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x11008 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x11008 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x32x4096_S256x4096 : S8x32x4096.ShapeCasts S256x4096
  reducesTo_S256x4096_S_d0_1 : S256x4096.ReducesTo [0, 1] S_
  h_S_ : 0 < S_.numel
  bcast_S_S256x4096 : S_.BroadcastsInDim S256x4096 (![] : Fin 0 → Fin S256x4096.rank)
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S256x256_S256x256_0_0 : ∀ a, (![0, 0] : Fin 2 → Nat) a + S256x256.size a ≤ S256x256.size a
  h_S256x256 : 0 < S256x256.numel
  reducesTo_S256x11008_S_d0_1 : S256x11008.ReducesTo [0, 1] S_
  bcast_S_S256x11008 : S_.BroadcastsInDim S256x11008 (![] : Fin 0 → Fin S256x11008.rank)
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S128x11008_S128x11008_0_0 : ∀ a, (![0, 0] : Fin 2 → Nat) a + S128x11008.size a ≤ S128x11008.size a
  h_S128x11008 : 0 < S128x11008.numel
  reduces_S128x11008_S128 : S128x11008.Reduces [1] S128
  shapeCasts_S128_S128x1 : S128.ShapeCasts S128x1
  broadcasts_S128x1_S128x11008 : S128x1.Broadcasts S128x11008
  inb_S256x128_S256x128_0_0 : ∀ a, (![0, 0] : Fin 2 → Nat) a + S256x128.size a ≤ S256x128.size a
  h_S256x128 : 0 < S256x128.numel
  shapeCasts_S256x4096_S8x32x4096 : S256x4096.ShapeCasts S8x32x4096
  dot_S256x4096_S256x4096_S256x256_1_1_0_0_n_n_wf : DotDims.WF S256x4096 S256x4096 S256x256 [1] [1] [0] [0] [] []
  dot_S256x11008_S128x11008_S256x128_1_1_0_0_n_n_wf : DotDims.WF S256x11008 S128x11008 S256x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .f32 = 32 ∨ (Rect.block (s := S11008x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x11008.size a
  hwx0_3 : ∀ i : grid0.Coords, EltTy.bits .f32 = 32 ∨ (Rect.block (s := S256x11008) S256x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x11008.size a ≤ S256x11008.size a
  hwx1_0 : ∀ i : grid1.Coords, EltTy.bits .bf16 = 32 ∨ (Rect.block (s := S256x11008) S256x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x11008.size a ≤ S4096x11008.size a
  hwx1_1 : ∀ i : grid1.Coords, EltTy.bits .f32 = 32 ∨ (Rect.block (s := S4096x11008) S128x11008.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x4096.size a
  hwx1_2 : ∀ i : grid1.Coords, EltTy.bits .f32 = 32 ∨ (Rect.block (s := S256x4096) S256x128.size (cc1_transform_2 i) (hinb1_2 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x11008_S128x11008_S256x128_1_1_0_0_n_n : DotDims S256x11008 S128x11008 S256x128 where
  lhsContracting := [1]
  rhsContracting := [1]
  lhsNonContracting := [0]
  rhsNonContracting := [0]
  lhsBatch := []
  rhsBatch := []
  wf := dot_S256x11008_S128x11008_S256x128_1_1_0_0_n_n_wf

abbrev win0_0 : Pipeline.Window sig grid0 :=
  Pipeline.Window.ofSpec (Memref.whole main_v11) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S256x11008.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x32x4096 : Shape := ⟨3, ![8, 32, 4096]⟩
abbrev S11008x4096 : Shape := ⟨2, ![11008, 4096]⟩
abbrev S4096x11008 : Shape := ⟨2, ![4096, 11008]⟩
abbrev S_ : Shape := ⟨0, ![]⟩
abbrev S11008 : Shape := ⟨1, ![11008]⟩
abbrev S11008x1 : Shape := ⟨2, ![11008, 1]⟩
abbrev S8x32x11008 : Shape := ⟨3, ![8, 32, 11008]⟩
abbrev S4096 : Shape := ⟨1, ![4096]⟩
abbrev S4096x1 : Shape := ⟨2, ![4096, 1]⟩

abbrev nBuf : Space → Nat
  | .hbm => 136
  | .vmem => 0
  | .smem => 0
  | _ => 0

abbrev hbmTy0_0 (i : Nat) : BufTy := match i % 128 with
  | 0 => ⟨S8x32x4096, .f32⟩
  | 1 => ⟨S11008x4096, .f32⟩
  | 2 => ⟨S11008x4096, .f32⟩
  | 3 => ⟨S4096x11008, .f32⟩
  | 4 => ⟨S8x32x4096, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8x32x4096, .f32⟩
  | 12 => ⟨S8x32x4096, .f32⟩
  | 13 => ⟨S8x32x4096, .f32⟩
  | 14 => ⟨S_, .f32⟩
  | 15 => ⟨S_, .f32⟩
  | 16 => ⟨S_, .f32⟩
  | 17 => ⟨S8x32x4096, .f32⟩
  | 18 => ⟨S8x32x4096, .f32⟩
  | 19 => ⟨S_, .f32⟩
  | 20 => ⟨S8x32x4096, .f32⟩
  | 21 => ⟨S8x32x4096, .f32⟩
  | 22 => ⟨S8x32x4096, .f32⟩
  | 23 => ⟨S8x32x4096, .f32⟩
  | 24 => ⟨S8x32x4096, .f32⟩
  | 25 => ⟨S8x32x4096, .f32⟩
  | 26 => ⟨S11008x4096, .f32⟩
  | 27 => ⟨S_, .f32⟩
  | 28 => ⟨S11008, .f32⟩
  | 29 => ⟨S11008x1, .f32⟩
  | 30 => ⟨S_, .f32⟩
  | 31 => ⟨S11008x1, .f32⟩
  | 32 => ⟨S11008x1, .f32⟩
  | 33 => ⟨S_, .f32⟩
  | 34 => ⟨S11008x1, .f32⟩
  | 35 => ⟨S11008x1, .f32⟩
  | 36 => ⟨S11008x4096, .f32⟩
  | 37 => ⟨S11008x4096, .f32⟩
  | 38 => ⟨S11008x4096, .f32⟩
  | 39 => ⟨S_, .f32⟩
  | 40 => ⟨S_, .f32⟩
  | 41 => ⟨S_, .f32⟩
  | 42 => ⟨S11008x4096, .f32⟩
  | 43 => ⟨S11008x4096, .f32⟩
  | 44 => ⟨S_, .f32⟩
  | 45 => ⟨S11008x4096, .f32⟩
  | 46 => ⟨S11008x4096, .f32⟩
  | 47 => ⟨S11008x4096, .f32⟩
  | 48 => ⟨S11008x4096, .f32⟩
  | 49 => ⟨S11008x4096, .f32⟩
  | 50 => ⟨S11008x4096, .f32⟩
  | 51 => ⟨S11008x4096, .f32⟩
  | 52 => ⟨S_, .f32⟩
  | 53 => ⟨S11008, .f32⟩
  | 54 => ⟨S11008x1, .f32⟩
  | 55 => ⟨S_, .f32⟩
  | 56 => ⟨S11008x1, .f32⟩
  | 57 => ⟨S11008x1, .f32⟩
  | 58 => ⟨S_, .f32⟩
  | 59 => ⟨S11008x1, .f32⟩
  | 60 => ⟨S11008x1, .f32⟩
  | 61 => ⟨S11008x4096, .f32⟩
  | 62 => ⟨S11008x4096, .f32⟩
  | 63 => ⟨S11008x4096, .f32⟩
  | 64 => ⟨S_, .f32⟩
  | 65 => ⟨S_, .f32⟩
  | 66 => ⟨S_, .f32⟩
  | 67 => ⟨S11008x4096, .f32⟩
  | 68 => ⟨S11008x4096, .f32⟩
  | 69 => ⟨S_, .f32⟩
  | 70 => ⟨S11008x4096, .f32⟩
  | 71 => ⟨S11008x4096, .f32⟩
  | 72 => ⟨S11008x4096, .f32⟩
  | 73 => ⟨S11008x4096, .f32⟩
  | 74 => ⟨S11008x4096, .f32⟩
  | 75 => ⟨S11008x4096, .f32⟩
  | 76 => ⟨S8x32x11008, .f32⟩
  | 77 => ⟨S8x32x11008, .f32⟩
  | 78 => ⟨S8x32x11008, .f32⟩
  | 79 => ⟨S8x32x11008, .f32⟩
  | 80 => ⟨S_, .f32⟩
  | 81 => ⟨S8x32x11008, .f32⟩
  | 82 => ⟨S8x32x11008, .f32⟩
  | 83 => ⟨S_, .f32⟩
  | 84 => ⟨S8x32x11008, .f32⟩
  | 85 => ⟨S8x32x11008, .f32⟩
  | 86 => ⟨S8x32x11008, .f32⟩
  | 87 => ⟨S8x32x11008, .f32⟩
  | 88 => ⟨S8x32x11008, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S8x32x11008, .f32⟩
  | 96 => ⟨S8x32x11008, .f32⟩
  | 97 => ⟨S8x32x11008, .f32⟩
  | 98 => ⟨S_, .f32⟩
  | 99 => ⟨S_, .f32⟩
  | 100 => ⟨S_, .f32⟩
  | 101 => ⟨S8x32x11008, .f32⟩
  | 102 => ⟨S8x32x11008, .f32⟩
  | 103 => ⟨S_, .f32⟩
  | 104 => ⟨S8x32x11008, .f32⟩
  | 105 => ⟨S8x32x11008, .f32⟩
  | 106 => ⟨S8x32x11008, .f32⟩
  | 107 => ⟨S8x32x11008, .f32⟩
  | 108 => ⟨S8x32x11008, .f32⟩
  | 109 => ⟨S8x32x11008, .f32⟩
  | 110 => ⟨S4096x11008, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096x1, .f32⟩
  | 119 => ⟨S4096x1, .f32⟩
  | 120 => ⟨S4096x11008, .f32⟩
  | 121 => ⟨S4096x11008, .f32⟩
  | 122 => ⟨S4096x11008, .f32⟩
  | 123 => ⟨S_, .f32⟩
  | 124 => ⟨S_, .f32⟩
  | 125 => ⟨S_, .f32⟩
  | 126 => ⟨S4096x11008, .f32⟩
  | 127 => ⟨S4096x11008, .f32⟩
  | _ => ⟨S8x32x4096, .f32⟩

abbrev hbmTy0_1 (i : Nat) : BufTy := match i % 128 with
  | 0 => ⟨S_, .f32⟩
  | 1 => ⟨S4096x11008, .f32⟩
  | 2 => ⟨S4096x11008, .f32⟩
  | 3 => ⟨S4096x11008, .f32⟩
  | 4 => ⟨S4096x11008, .f32⟩
  | 5 => ⟨S4096x11008, .f32⟩
  | 6 => ⟨S4096x11008, .f32⟩
  | 7 => ⟨S8x32x4096, .f32⟩
  | _ => ⟨S8x32x4096, .f32⟩

abbrev hbmTy (i : Nat) : BufTy := match i / 128 with
  | 0 => hbmTy0_0 i
  | 1 => hbmTy0_1 i
  | _ => ⟨S8x32x4096, .f32⟩

abbrev bufTy : (tb : Table) → Fin (tcTables nBuf tb) → BufTy
  | .hbm, ⟨i, _⟩ => hbmTy i
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_cst_13 : Ref sig .tc := ⟨.hbm, 65, rfl⟩
abbrev main_call5_v0 : Ref sig .tc := ⟨.hbm, 66, rfl⟩
abbrev main_call5_v1 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call6_v0 : Ref sig .tc := ⟨.hbm, 78, rfl⟩
abbrev main_call6_v1 : Ref sig .tc := ⟨.hbm, 79, rfl⟩
abbrev main_call6_cst : Ref sig .tc := ⟨.hbm, 80, rfl⟩
abbrev main_call6_v2 : Ref sig .tc := ⟨.hbm, 81, rfl⟩
abbrev main_call6_v3 : Ref sig .tc := ⟨.hbm, 82, rfl⟩
abbrev main_call6_cst_0 : Ref sig .tc := ⟨.hbm, 83, rfl⟩
abbrev main_call6_v4 : Ref sig .tc := ⟨.hbm, 84, rfl⟩
abbrev main_call6_v5 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_14 : Ref sig .tc := ⟨.hbm, 89, rfl⟩
abbrev main_v47 : Ref sig .tc := ⟨.hbm, 90, rfl⟩
abbrev main_cst_15 : Ref sig .tc := ⟨.hbm, 91, rfl⟩
abbrev main_v48 : Ref sig .tc := ⟨.hbm, 92, rfl⟩
abbrev main_cst_16 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_17 : Ref sig .tc := ⟨.hbm, 98, rfl⟩
abbrev main_cst_18 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_19 : Ref sig .tc := ⟨.hbm, 111, rfl⟩
abbrev main_v59 : Ref sig .tc := ⟨.hbm, 112, rfl⟩
abbrev main_v60 : Ref sig .tc := ⟨.hbm, 113, rfl⟩
abbrev main_cst_20 : Ref sig .tc := ⟨.hbm, 114, rfl⟩
abbrev main_v61 : Ref sig .tc := ⟨.hbm, 115, rfl⟩
abbrev main_v62 : Ref sig .tc := ⟨.hbm, 116, rfl⟩
abbrev main_cst_21 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_22 : Ref sig .tc := ⟨.hbm, 123, rfl⟩
abbrev main_cst_23 : Ref sig .tc := ⟨.hbm, 124, rfl⟩
abbrev main_call10_v0 : Ref sig .tc := ⟨.hbm, 125, rfl⟩
abbrev main_call10_v1 : Ref sig .tc := ⟨.hbm, 126, rfl⟩
abbrev main_call10_v2 : Ref sig .tc := ⟨.hbm, 127, rfl⟩
abbrev main_call10_v3 : Ref sig .tc := ⟨.hbm, 128, rfl⟩
abbrev main_call10_v4 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩

abbrev nD : Nat := 1
abbrev τ : Topo := Topo.v7x

variable {F : FTy → Type} [FloatOps F]

class Facts₀ : Prop where
  reducesTo_S8x32x4096_S_d0_1_2 : S8x32x4096.ReducesTo [0, 1, 2] S_
  h_S_ : 0 < S_.numel
  bcast_S_S8x32x4096 : S_.BroadcastsInDim S8x32x4096 (![] : Fin 0 → Fin S8x32x4096.rank)
  reducesTo_S11008x4096_S11008_d1 : S11008x4096.ReducesTo [1] S11008
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x4096_0_1 : S11008x1.BroadcastsInDim S11008x4096 (![0, 1] : Fin 2 → Fin S11008x4096.rank)
  bcast_S_S11008x4096 : S_.BroadcastsInDim S11008x4096 (![] : Fin 0 → Fin S11008x4096.rank)
  bcast_S_S8x32x11008 : S_.BroadcastsInDim S8x32x11008 (![] : Fin 0 → Fin S8x32x11008.rank)
  reducesTo_S8x32x11008_S_d0_1_2 : S8x32x11008.ReducesTo [0, 1, 2] S_
  reducesTo_S4096x11008_S4096_d1 : S4096x11008.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x11008_0_1 : S4096x1.BroadcastsInDim S4096x11008 (![0, 1] : Fin 2 → Fin S4096x11008.rank)
  bcast_S_S4096x11008 : S_.BroadcastsInDim S4096x11008 (![] : Fin 0 → Fin S4096x11008.rank)
  dot_S8x32x4096_S11008x4096_S8x32x11008_2_1_01_0_n_n_wf : DotDims.WF S8x32x4096 S11008x4096 S8x32x11008 [2] [1] [0, 1] [0] [] []
  dot_S8x32x11008_S4096x11008_S8x32x4096_2_1_01_0_n_n_wf : DotDims.WF S8x32x11008 S4096x11008 S8x32x4096 [2] [1] [0, 1] [0] [] []

variable [Facts₀]

def dot_S8x32x4096_S11008x4096_S8x32x11008_2_1_01_0_n_n : DotDims S8x32x4096 S11008x4096 S8x32x11008 where
  lhsContracting := [2]
  rhsContracting := [1]
  lhsNonContracting := [0, 1]
  rhsNonContracting := [0]
  lhsBatch := []
  rhsBatch := []
  wf := dot_S8x32x4096_S11008x4096_S8x32x11008_2_1_01_0_n_n_wf
def dot_S8x32x11008_S4096x11008_S8x32x4096_2_1_01_0_n_n : DotDims S8x32x11008 S4096x11008 S8x32x4096 where
  lhsContracting := [2]
  rhsContracting := [1]
  lhsNonContracting := [0, 1]
  rhsNonContracting := [0]
  lhsBatch := []
  rhsBatch := []
  wf := dot_S8x32x11008_S4096x11008_S8x32x4096_2_1_01_0_n_n_wf

class Facts : Prop extends Facts₀ where

variable [Facts]
-- ==== Proof.Quant.lean ====
/-
  Symmetric fake quantisation on the extended reals, and the quantised gated MLP built from it.

  A family of numbers is quantised against ONE scale: its largest magnitude divided by 127, plus a small positive
  constant.  An entry x becomes  clip(round(x / s), -128, 127) * s  (round to nearest, ties to even).  The rows of a
  weight matrix are quantised one row at a time; an activation matrix is quantised as a whole.  The gated MLP is
      h = silu(xq · wgqᵀ) * (xq · wuqᵀ),   out = hq · wdqᵀ,
  with xq, hq the whole-matrix quantisations of x and h, and wgq, wuq, wdq the row-wise quantisations of the weights.

  Everything here is stated over an arbitrary finite row type, so that a matrix of 256 rows and the same matrix seen as
  8 × 32 rows are instances of one definition; `mlp_reindex` moves between them along a bijection of the rows.
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Data.Finset.Fold
import Mathlib.Data.Finset.BooleanAlgebra
import Mathlib.Algebra.BigOperators.Group.Finset.Basic
import Mathlib.Logic.Equiv.Prod

noncomputable section

namespace Cert.Quant

open Idealize.ShloMosaic

/-- The upper clip bound, the float word of 127. -/
def cHi : EReal := Ideal.ofBits .f32 0x42FE0000#32
/-- The lower clip bound, the float word of -128. -/
def cLo : EReal := Ideal.ofBits .f32 0xC3000000#32
/-- The small positive constant added to every scale. -/
def cEps : EReal := Ideal.ofBits .f32 0x322BCC77#32
/-- The value a maximum starts from: the float word of minus infinity. -/
def cBot : EReal := Ideal.ofBits .f32 0xFF800000#32

/-- The magnitude of an extended real. -/
def absE (x : EReal) : EReal := max x (-x)

/-- The largest magnitude of a finite family. -/
def amax {ι : Type} [Fintype ι] (f : ι → EReal) : EReal := Finset.univ.fold max cBot fun i => absE (f i)

/-- The quantisation step belonging to a largest magnitude. -/
def scale (mx : EReal) : EReal := Ideal.div mx cHi + cEps

/-- One entry quantised with step `s`. -/
def fq (s x : EReal) : EReal := min cHi (max cLo (Ideal.liftRound Ideal.roundHalfEven (Ideal.div x s))) * s

/-- A finite family quantised against its own largest magnitude. -/
def fqAll {ι : Type} [Fintype ι] (f : ι → EReal) (i : ι) : EReal := fq (scale (amax f)) (f i)

/-- The inner product of two rows. -/
def dot {K : ℕ} (a b : Fin K → EReal) : EReal := ∑ k, a k * b k

/-- x · σ(x). -/
def silu (g : EReal) : EReal := g * Ideal.logistic g

/-- One entry of the hidden layer: an activation row against one row of each of the gate and up weights. -/
def hEntry {K : ℕ} (xr wg wu : Fin K → EReal) : EReal := silu (dot xr (fqAll wg)) * dot xr (fqAll wu)

/-- One entry of the output: a hidden row against one row of the down weights. -/
def dEntry {K : ℕ} (hr wd : Fin K → EReal) : EReal := dot hr (fqAll wd)

/-- The hidden layer before its quantisation. -/
def hidden {R : Type} [Fintype R] {H I : ℕ} (x : R → Fin H → EReal) (wg wu : Fin I → Fin H → EReal) (r : R) (j : Fin I) : EReal :=
  hEntry (fun k => fqAll (fun q : R × Fin H => x q.1 q.2) (r, k)) (wg j) (wu j)

/-- The quantised gated MLP. -/
def mlp {R : Type} [Fintype R] {H I : ℕ} (x : R → Fin H → EReal) (wg wu : Fin I → Fin H → EReal) (wd : Fin H → Fin I → EReal)
    (r : R) (n : Fin H) : EReal :=
  dEntry (fun j => fqAll (fun p : R × Fin I => hidden x wg wu p.1 p.2) (r, j)) (wd n)

/-! ## Real values -/

/-- An extended real that is a real number. -/
def IsR (x : EReal) : Prop := ∃ r : ℝ, x = (r : EReal)

/-- The word 0x42FE0000 denotes 127. -/
private theorem cHi_eq : cHi = ((127 : ℝ) : EReal) := by
  unfold cHi; simp [Ideal.ofBits, Ideal.ieee, -EReal.coe_mul]; norm_num

/-- The word 0xC3000000 denotes -128. -/
private theorem cLo_eq : cLo = ((-128 : ℝ) : EReal) := by
  unfold cLo; simp [Ideal.ofBits, Ideal.ieee, -EReal.coe_mul]; norm_num

/-- The word 0xFF800000 denotes minus infinity. -/
private theorem cBot_eq : cBot = ⊥ := by
  unfold cBot; simp [Ideal.ofBits, Ideal.ieee]

/-- A real is neither infinity, and conversely. -/
private theorem isR_iff {x : EReal} : IsR x ↔ x ≠ ⊥ ∧ x ≠ ⊤ :=
  ⟨fun ⟨r, h⟩ => h ▸ ⟨EReal.coe_ne_bot r, EReal.coe_ne_top r⟩,
   fun ⟨hb, ht⟩ => ⟨x.toReal, (EReal.coe_toReal ht hb).symm⟩⟩

/-- A value between two reals is real. -/
private theorem isR_of_between {a b x : EReal} (ha : IsR a) (hb : IsR b) (h1 : a ≤ x) (h2 : x ≤ b) : IsR x := by
  rw [isR_iff] at *
  exact ⟨fun h => ha.1 (le_bot_iff.1 (h ▸ h1)), fun h => hb.2 (top_le_iff.1 (h ▸ h2))⟩

private theorem isR_mul {a b : EReal} (ha : IsR a) (hb : IsR b) : IsR (a * b) := by
  obtain ⟨r, rfl⟩ := ha; obtain ⟨s, rfl⟩ := hb
  exact ⟨r * s, (EReal.coe_mul r s).symm⟩

private theorem isR_add {a b : EReal} (ha : IsR a) (hb : IsR b) : IsR (a + b) := by
  obtain ⟨r, rfl⟩ := ha; obtain ⟨s, rfl⟩ := hb
  exact ⟨r + s, (EReal.coe_add r s).symm⟩

/-- Adding a difference back: for a real `x`, `x + (q - x) = q` whatever `q` is. -/
theorem add_sub_cancel_of_isR {x : EReal} (hx : IsR x) (q : EReal) : x + (q - x) = q := by
  obtain ⟨r, rfl⟩ := hx
  induction q using EReal.rec with
  | bot => rw [EReal.bot_sub, EReal.add_bot]
  | coe q => rw [← EReal.coe_sub, ← EReal.coe_add]; congr 1; ring
  | top => rw [EReal.top_sub_coe, EReal.coe_add_top]

theorem isR_cHi : IsR cHi := ⟨127, cHi_eq⟩
theorem isR_cLo : IsR cLo := ⟨-128, cLo_eq⟩
theorem isR_cEps : IsR cEps := by
  unfold cEps; simp [Ideal.ofBits, Ideal.ieee, -EReal.coe_mul]
  exact ⟨_, rfl⟩

theorem isR_absE {x : EReal} (hx : IsR x) : IsR (absE x) := by
  obtain ⟨r, rfl⟩ := hx
  unfold absE
  rcases le_total (r : EReal) (-(r : EReal)) with h | h
  · rw [max_eq_right h]; exact ⟨-r, (EReal.coe_neg r).symm⟩
  · rw [max_eq_left h]; exact ⟨r, rfl⟩

/-- The largest magnitude of a nonempty family of reals is real. -/
theorem isR_amax {ι : Type} [Fintype ι] [Nonempty ι] {f : ι → EReal} (hf : ∀ i, IsR (f i)) : IsR (amax f) := by
  have hg : ∀ i, absE (f i) ≠ ⊥ ∧ absE (f i) ≠ ⊤ := fun i => isR_iff.1 (isR_absE (hf i))
  rw [isR_iff]
  unfold amax
  constructor
  · apply ne_of_gt
    rw [Finset.lt_fold_max]
    obtain ⟨i⟩ := ‹Nonempty ι›
    exact Or.inr ⟨i, Finset.mem_univ i, bot_lt_iff_ne_bot.2 (hg i).1⟩
  · apply ne_of_lt
    rw [Finset.fold_max_lt]
    exact ⟨by rw [cBot_eq]; exact bot_lt_top, fun i _ => lt_top_iff_ne_top.2 (hg i).2⟩

theorem isR_scale {mx : EReal} (h : IsR mx) : IsR (scale mx) := by
  unfold scale
  refine isR_add ?_ isR_cEps
  rw [cHi_eq, Ideal.div_coe (by norm_num : (127 : ℝ) ≠ 0)]
  exact isR_mul h ⟨_, rfl⟩

/-- A quantised entry is real as soon as the step is: the clip is real whatever it clips. -/
theorem isR_fq {s : EReal} (hs : IsR s) (x : EReal) : IsR (fq s x) := by
  unfold fq
  refine isR_mul (isR_of_between isR_cLo isR_cHi (le_min ?_ (le_max_left _ _)) (min_le_left _ _)) hs
  rw [cLo_eq, cHi_eq]; exact_mod_cast (by norm_num : (-128 : ℝ) ≤ 127)

theorem isR_fqAll {ι : Type} [Fintype ι] [Nonempty ι] {f : ι → EReal} (hf : ∀ i, IsR (f i)) (i : ι) : IsR (fqAll f i) :=
  isR_fq (isR_scale (isR_amax hf)) (f i)

theorem isR_dot {K : ℕ} {a b : Fin K → EReal} (ha : ∀ k, IsR (a k)) (hb : ∀ k, IsR (b k)) : IsR (dot a b) := by
  unfold dot
  exact Finset.sum_induction _ IsR (fun _ _ => isR_add) ⟨0, EReal.coe_zero.symm⟩ (fun k _ => isR_mul (ha k) (hb k))

theorem isR_silu {g : EReal} (hg : IsR g) : IsR (silu g) := by
  obtain ⟨r, rfl⟩ := hg
  unfold silu
  rw [Ideal.logistic_coe]
  exact isR_mul ⟨r, rfl⟩ ⟨_, rfl⟩

theorem isR_hEntry {K : ℕ} [NeZero K] {xr wg wu : Fin K → EReal} (hx : ∀ k, IsR (xr k)) (hg : ∀ k, IsR (wg k)) (hu : ∀ k, IsR (wu k)) :
    IsR (hEntry xr wg wu) := by
  haveI : Nonempty (Fin K) := ⟨⟨0, Nat.pos_of_ne_zero (NeZero.ne K)⟩⟩
  exact isR_mul (isR_silu (isR_dot hx (isR_fqAll hg))) (isR_dot hx (isR_fqAll hu))

/-! ## Re-indexing -/

/-- The largest magnitude does not depend on how the family is indexed. -/
theorem amax_equiv {ι κ : Type} [Fintype ι] [Fintype κ] (e : ι ≃ κ) (f : κ → EReal) : amax (fun i => f (e i)) = amax f := by
  unfold amax
  rw [← Finset.map_univ_equiv e, Finset.fold_map]
  rfl

/-- Quantising a family commutes with re-indexing it. -/
theorem fqAll_equiv {ι κ : Type} [Fintype ι] [Fintype κ] (e : ι ≃ κ) (f : κ → EReal) (i : ι) :
    fqAll (fun i => f (e i)) i = fqAll f (e i) := by
  unfold fqAll; rw [amax_equiv e f]

/-- The MLP of a matrix whose rows are re-indexed along a bijection is the MLP re-indexed. -/
theorem mlp_reindex {R R' : Type} [Fintype R] [Fintype R'] {H I : ℕ} (e : R ≃ R') (x : R' → Fin H → EReal)
    (wg wu : Fin I → Fin H → EReal) (wd : Fin H → Fin I → EReal) (r : R) (n : Fin H) :
    mlp (fun r k => x (e r) k) wg wu wd r n = mlp x wg wu wd (e r) n := by
  -- the hidden layer of the re-indexed matrix is the hidden layer re-indexed
  have hh : ∀ (r0 : R) (j : Fin I), hidden (fun r k => x (e r) k) wg wu r0 j = hidden x wg wu (e r0) j := by
    intro r0 j
    unfold hidden
    exact congrArg (fun v => hEntry v (wg j) (wu j))
      (funext fun k => fqAll_equiv (e.prodCongr (Equiv.refl (Fin H))) (fun q : R' × Fin H => x q.1 q.2) (r0, k))
  have h2 : (fun p : R × Fin I => hidden (fun r k => x (e r) k) wg wu p.1 p.2)
      = fun p => (fun p' : R' × Fin I => hidden x wg wu p'.1 p'.2) (e.prodCongr (Equiv.refl (Fin I)) p) :=
    funext fun p => hh p.1 p.2
  unfold mlp
  refine congrArg (fun v => dEntry v (wd n)) (funext fun j => ?_)
  exact (congrArg (fun F => fqAll F (r, j)) h2).trans
    (fqAll_equiv (e.prodCongr (Equiv.refl (Fin I))) (fun p' : R' × Fin I => hidden x wg wu p'.1 p'.2) (r, j))

end Cert.Quant

end
-- ==== Proof.HostStretches.lean ====
/-
  The host operations around the two regions, read at the arrays the regions take and at the result.
  Before the first region the activations are reshaped to 256 rows and quantised as a whole; the weights are not
  touched.  Between the regions the hidden matrix is quantised as a whole.  After the second region the output is
  reshaped back to 8 × 32 rows.
-/
import proofs.«117782_j78151224918032_1_alg».proof.Proof.Gen.KernelIdeal.Frame
import proofs.«117782_j78151224918032_1_alg».proof.Proof.Quant
import Idealize.ShloMosaic.Lib.StableHlo.Run
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.KernelIdeal.Stretches

open Cert.KernelIdeal Cert.KernelIdeal.Gen Idealize.ShloMosaic Idealize.ShloMosaic.TcCoe Idealize.ShloMosaic.ValueIdx Idealize.SL.Sem
open Idealize.ShloMosaic.Pipeline (Dat Cfg Window)

/-- The whole-array quantisation as the host program spells it, over any shape that reduces to the scalar shape:
    the largest magnitude, divided by 127, plus the small constant, broadcast; the entries divided by it, rounded,
    clipped to [-128, 127], multiplied back and narrowed. -/
def chain {s : Shape} {axes : List (Fin s.rank)} (hr : s.ReducesTo axes S_) (hb : S_.BroadcastsInDim s (![] : Fin 0 → Fin s.rank))
    (X : s.Idx → EReal) : s.Idx → EReal :=
  truncf (F := Ideal) .bf16
    (mulf (F := Ideal) (φ := .f32)
      (minimumf (F := Ideal) (φ := .f32) (broadcastInDim s ![] hb (id (constant (F := Ideal) S_ .f32 0x42FE0000#32)))
        (maximumf (F := Ideal) (φ := .f32) (broadcastInDim s ![] hb (id (constant (F := Ideal) S_ .f32 0xC3000000#32)))
          (Host.roundeven (F := Ideal) (φ := .f32) (Host.divf (F := Ideal) (φ := .f32) X
            (broadcastInDim s ![] hb
              (addf (F := Ideal) (φ := .f32) (Host.divf (F := Ideal) (φ := .f32)
                (Host.reduce (FloatOps.maximumf (F := Ideal) (φ := .f32)) (Host.absf (F := Ideal) (φ := .f32) X) (constant (F := Ideal) S_ .f32 0xFF800000#32) hr h_S_)
                (constant (F := Ideal) S_ .f32 0x42FE0000#32)) (constant (F := Ideal) S_ .f32 0x322BCC77#32)))))))
      (broadcastInDim s ![] hb
        (addf (F := Ideal) (φ := .f32) (Host.divf (F := Ideal) (φ := .f32)
          (Host.reduce (FloatOps.maximumf (F := Ideal) (φ := .f32)) (Host.absf (F := Ideal) (φ := .f32) X) (constant (F := Ideal) S_ .f32 0xFF800000#32) hr h_S_)
          (constant (F := Ideal) S_ .f32 0x42FE0000#32)) (constant (F := Ideal) S_ .f32 0x322BCC77#32))))
    bitsLt_bf16_f32

/-- The full maximum-reduction of the magnitudes into the scalar shape is the largest magnitude: every index
    drops to the one result index. -/
theorem reduce_eq_amax {s : Shape} {axes : List (Fin s.rank)} (hr : s.ReducesTo axes S_) (X : s.Idx → EReal) (k : S_.Idx) :
    Host.reduce (FloatOps.maximumf (F := Ideal) (φ := .f32)) (Host.absf (F := Ideal) (φ := .f32) X) (constant (F := Ideal) S_ .f32 0xFF800000#32) hr h_S_ k
      = Cert.Quant.amax X := by
  rw [Host.reduce_eq_fold, Finset.filter_true_of_mem (fun i _ => funext fun a => a.elim0)]
  rfl

/-- The chain is the quantisation of the array against its own largest magnitude. -/
theorem chain_eq {s : Shape} {axes : List (Fin s.rank)} (hr : s.ReducesTo axes S_) (hb : S_.BroadcastsInDim s (![] : Fin 0 → Fin s.rank))
    (X : s.Idx → EReal) : chain hr hb X = Cert.Quant.fqAll X := by
  funext i
  have hB : ∀ y : S_.Idx → EReal, broadcastInDim s ![] hb y i = y (fun a => a.elim0) :=
    fun y => broadcastInDim_apply _ hb y i (fun a => a.elim0) (fun a => a.elim0)
  have hR := reduce_eq_amax hr X (fun a => a.elim0)
  unfold chain
  generalize Host.reduce (FloatOps.maximumf (F := Ideal) (φ := .f32)) (Host.absf (F := Ideal) (φ := .f32) X) (constant (F := Ideal) S_ .f32 0xFF800000#32) hr h_S_ = R at hR ⊢
  show min (broadcastInDim s ![] hb (id (constant (F := Ideal) S_ .f32 0x42FE0000#32)) i)
      (max (broadcastInDim s ![] hb (id (constant (F := Ideal) S_ .f32 0xC3000000#32)) i)
        (Ideal.liftRound Ideal.roundHalfEven (Ideal.div (X i)
          (broadcastInDim s ![] hb (addf (F := Ideal) (φ := .f32) (Host.divf (F := Ideal) (φ := .f32) R (constant (F := Ideal) S_ .f32 0x42FE0000#32)) (constant (F := Ideal) S_ .f32 0x322BCC77#32)) i))))
      * broadcastInDim s ![] hb (addf (F := Ideal) (φ := .f32) (Host.divf (F := Ideal) (φ := .f32) R (constant (F := Ideal) S_ .f32 0x42FE0000#32)) (constant (F := Ideal) S_ .f32 0x322BCC77#32)) i = _
  rw [hB, hB, hB]
  show min Cert.Quant.cHi (max Cert.Quant.cLo (Ideal.liftRound Ideal.roundHalfEven (Ideal.div (X i)
      (Ideal.div (R (fun a => a.elim0)) Cert.Quant.cHi + Cert.Quant.cEps))))
      * (Ideal.div (R (fun a => a.elim0)) Cert.Quant.cHi + Cert.Quant.cEps) = _
  rw [hR]
  rfl

variable (m : (ℓ : Loc nD τ sig) → Buf (Elt Ideal) ℓ) (ρ : Dev nD → PrngReg)

/-- A stretch of host operations leaves a buffer none of them writes as it was: each operation writes one buffer,
    and that buffer is a different one. -/
local macro "stretch_keeps" : tactic => `(tactic| (
  refine StableHlo.after_of_forall_not_mem _ _ (List.forall_iff_forall_mem.mp ?_)
  simp only [hostOps0, hostOps0_1, hostOps0_2, hostOps0_3, hostOps0_4, hostOps1, hostOps1_1, hostOps1_2, hostOps1_3,
    hostOps1_4, hostOps2, List.Forall, StableHlo.nullary_writes, StableHlo.unary_writes, StableHlo.binary_writes,
    StableHlo.reshape_writes, Finset.mem_singleton]
  repeat' apply And.intro
  all_goals exact StableHlo.devRef_ne_of_ne (by decide)))

/-- The first region is entered with the reshaped activations quantised against their largest magnitude. -/
theorem entry0_act (c : Dev nD) :
    (V5 m ρ c main_v11 : S256x4096.Idx → EReal)
      = Cert.Quant.fqAll (shapeCast S256x4096 (m ((c : Thread nD τ).loc main_arg0)) shapeCasts_S8x32x4096_S256x4096 : S256x4096.Idx → EReal) := by
  refine Eq.trans ?_ (chain_eq reducesTo_S256x4096_S_d0_1 bcast_S_S256x4096 _)
  dsimp only [V5, W5, W4, W3, W2, W1, hostOps0, hostOps0_1, hostOps0_2, hostOps0_3, hostOps0_4]
  after_results_simp
  simp only [StableHlo.TRef.ofBuf, StableHlo.TRef.toBuf, cast_eq]
  rfl

/-- … and with the gate weights as launched. -/
theorem entry0_gate (c : Dev nD) : V5 m ρ c main_arg1 = m ((c : Thread nD τ).loc main_arg1) :=
  calc W5 m ρ c (Proc.devRef .tc main_arg1)
    _ = W4 m ρ c (Proc.devRef .tc main_arg1) := by stretch_keeps
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) := by stretch_keeps
    _ = m ((c : Thread nD τ).loc main_arg1) := rfl

/-- … and with the up weights as launched. -/
theorem entry0_up (c : Dev nD) : V5 m ρ c main_arg2 = m ((c : Thread nD τ).loc main_arg2) :=
  calc W5 m ρ c (Proc.devRef .tc main_arg2)
    _ = W4 m ρ c (Proc.devRef .tc main_arg2) := by stretch_keeps
    _ = W3 m ρ c (Proc.devRef .tc main_arg2) := by stretch_keeps
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

/-- The host operations between the regions quantise whatever matrix the first region's output array holds. -/
theorem between_regions (c : Dev nD) (Y : S256x11008.Idx → EReal) (hY : W6 m ρ c (Proc.devRef .tc main_v12) = Y) :
    (V11 m ρ c main_v23 : S256x11008.Idx → EReal) = Cert.Quant.fqAll Y := by
  refine Eq.trans ?_ (chain_eq reducesTo_S256x11008_S_d0_1 bcast_S_S256x11008 Y)
  dsimp only [V11, W11, W10, W9, W8, W7, hostOps1, hostOps1_1, hostOps1_2, hostOps1_3, hostOps1_4]
  after_results_simp
  simp only [StableHlo.TRef.ofBuf, StableHlo.TRef.toBuf, cast_eq]
  rw [hY]
  rfl

/-- The second region is entered with the hidden matrix the first one left, quantised against its largest magnitude. -/
theorem entry1_act (c : Dev nD) :
    (V11 m ρ c main_v23 : S256x11008.Idx → EReal)
      = Cert.Quant.fqAll ((dat0 (V5 m ρ) c).arrAt 3 cfg0.N : S256x11008.Idx → EReal) :=
  -- the hidden matrix is what the first region leaves in its output array
  between_regions m ρ c _ (W6_arr m ρ c 3)

/-- … and with the down weights as launched. -/
theorem entry1_down (c : Dev nD) : V11 m ρ c main_arg3 = m ((c : Thread nD τ).loc main_arg3) :=
  calc W11 m ρ c (Proc.devRef .tc main_arg3)
    _ = W10 m ρ c (Proc.devRef .tc main_arg3) := by stretch_keeps
    _ = W9 m ρ c (Proc.devRef .tc main_arg3) := by stretch_keeps
    _ = W8 m ρ c (Proc.devRef .tc main_arg3) := by stretch_keeps
    _ = W7 m ρ c (Proc.devRef .tc main_arg3) := by stretch_keeps
    _ = W6 m ρ c (Proc.devRef .tc main_arg3) := by stretch_keeps
    _ = W5 m ρ c (Proc.devRef .tc main_arg3) := W6_of_ne m ρ c main_arg3 (by decide)
    _ = W4 m ρ c (Proc.devRef .tc main_arg3) := by stretch_keeps
    _ = W3 m ρ c (Proc.devRef .tc main_arg3) := by stretch_keeps
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl

/-- The result is the second region's output reshaped. -/
theorem exit_result (c : Dev nD) :
    (W13 m ρ c (Proc.devRef .tc main_v25) : S8x32x4096.Idx → EReal)
      = shapeCast S8x32x4096 ((dat1 (V11 m ρ) c).arrAt 2 cfg1.N : S256x4096.Idx → EReal) shapeCasts_S256x4096_S8x32x4096 := by
  -- the second region's output array, as one unknown matrix
  have hY : W12 m ρ c (Proc.devRef .tc main_v24) = ((dat1 (V11 m ρ) c).arrAt 2 cfg1.N : S256x4096.Idx → EReal) :=
    W12_arr m ρ c 2
  generalize ((dat1 (V11 m ρ) c).arrAt 2 cfg1.N : S256x4096.Idx → EReal) = Y at hY ⊢
  dsimp only [W13, hostOps2]
  after_results
  rw [hY]
  rfl

end Cert.KernelIdeal.Stretches

end
-- ==== Proof.BodyGateUp.lean ====
/-
  The gate/up body at one entry.  From a block of 256 rows of each of the gate and up weights and the whole quantised
  activation matrix, entry (p, q) of the stored block is silu(gate) * up, where gate and up are the inner products of
  activation row p with row q of the gate and of the up weights, each row quantised against its own largest magnitude.
-/
import proofs.«117782_j78151224918032_1_alg».proof.Proof.Gen.KernelIdeal.Skeleton
import proofs.«117782_j78151224918032_1_alg».proof.Proof.Quant
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

namespace GateUp

/-- The largest magnitude along a row: the row maximum of the magnitudes of an [R, K] block at row q. -/
theorem rowmax_apply {R K : ℕ} (x : FVec Ideal ⟨2, ![R, K]⟩ .f32) (h : Shape.Reduces ⟨2, ![R, K]⟩ [1] ⟨1, ![R]⟩)
    (hφ : FKind.Formats .f32) (hacc : (0xFF800000#32 : BitVec 32) = FKind.maximumf.neutral .f32 hφ) (q : Fin R) :
    multiReduction .maximumf [1] ⟨1, ![R]⟩ (absf x) 0xFF800000#32 h hφ hacc (ix1 q)
      = Cert.Quant.amax (fun k : Fin K => x (ix2 q k)) := by
  rw [Ideal.multiReduction_maximumf_single]
  have e : ∀ k : Fin K, h.lift (ix1 q) k = ix2 q k := fun k => funext fun a => Fin.ext (by
    match a with
    | ⟨0, _⟩ => rfl
    | ⟨1, _⟩ => rfl)
  show Finset.univ.fold max Cert.Quant.cBot (fun k : Fin K => Cert.Quant.absE (x (h.lift (ix1 q) k))) = _
  unfold Cert.Quant.amax
  exact congrArg (fun f : Fin K → EReal => Finset.univ.fold max Cert.Quant.cBot f) (funext fun k => by rw [e k])

/-- A column [a, 1] spread over b columns reads, at (p, c), the column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The quantisation step of row q, spread over the row: the row's largest magnitude over 127, plus the small constant. -/
theorem scalecol_apply {R K : ℕ} (m : FVec Ideal ⟨1, ![R]⟩ .f32) (hsc : (⟨1, ![R]⟩ : Shape).ShapeCasts ⟨2, ![R, 1]⟩)
    (hbc : (⟨2, ![R, 1]⟩ : Shape).Broadcasts ⟨2, ![R, K]⟩) (q : Fin R) (k : Fin K) :
    broadcastTo ⟨2, ![R, K]⟩
        (addf (divf (shapeCast ⟨2, ![R, 1]⟩ m hsc) (broadcast ⟨2, ![R, 1]⟩ (Scalar.ofBits (F := Ideal) .f32 0x42FE0000#32)))
          (broadcast ⟨2, ![R, 1]⟩ (Scalar.ofBits (F := Ideal) .f32 0x322BCC77#32))) hbc (ix2 q k)
      = Cert.Quant.scale (m (ix1 q)) := by
  refine (broadcastTo_a1_ab_apply _ hbc q k).trans ?_
  have e : shapeCast ⟨2, ![R, 1]⟩ m hsc (ix2 q (0 : Fin 1)) = m (ix1 q) :=
    shapeCast_apply m hsc (ix2 q (0 : Fin 1)) (ix1 q) (by
      rw [Shape.rowMajor_val_two, Shape.rowMajor_val_one]; show q.val = q.val * 1 + 0; omega)
  show Ideal.div (shapeCast ⟨2, ![R, 1]⟩ m hsc (ix2 q (0 : Fin 1))) Cert.Quant.cHi + Cert.Quant.cEps = _
  rw [e]; rfl

/-- One entry of a block quantised against an array of steps: the clipped rounded quotient times the step. -/
theorem quant_elem {s : Shape} (x B : FVec Ideal s .f32) (hlt : FTy.bits .bf16 < FTy.bits .f32) (i : s.Idx) (sc : EReal) (hB : B i = sc) :
    (truncf .bf16 (mulf (minimumf (broadcast s (Scalar.ofBits (F := Ideal) .f32 0x42FE0000#32))
        (maximumf (broadcast s (Scalar.ofBits (F := Ideal) .f32 0xC3000000#32)) (roundeven (divf x B)))) B) hlt : FVec Ideal s .bf16) i
      = Cert.Quant.fq sc (x i) := by
  subst hB; rfl

theorem lhs_gu_0 (i : S256x256.Idx) (c : dot_S256x4096_S256x4096_S256x256_1_1_0_0_n_n.contr.Idx) :
    (dot_S256x4096_S256x4096_S256x256_1_1_0_0_n_n.lhsIdx i c 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_gu_1 (i : S256x256.Idx) (c : dot_S256x4096_S256x4096_S256x256_1_1_0_0_n_n.contr.Idx) :
    (dot_S256x4096_S256x4096_S256x256_1_1_0_0_n_n.lhsIdx i c 1).val = (c ⟨0, by decide⟩).val :=
  dot_S256x4096_S256x4096_S256x256_1_1_0_0_n_n.lhsIdx_val_of_single rfl i c
theorem rhs_gu_0 (i : S256x256.Idx) (c : dot_S256x4096_S256x4096_S256x256_1_1_0_0_n_n.contr.Idx) :
    (dot_S256x4096_S256x4096_S256x256_1_1_0_0_n_n.rhsIdx i c 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_gu_1 (i : S256x256.Idx) (c : dot_S256x4096_S256x4096_S256x256_1_1_0_0_n_n.contr.Idx) :
    (dot_S256x4096_S256x4096_S256x256_1_1_0_0_n_n.rhsIdx i c 1).val = (c ⟨0, by decide⟩).val :=
  dot_S256x4096_S256x4096_S256x256_1_1_0_0_n_n.rhsIdx_val_of_single rfl i c

/-- The block product into a zero accumulator at (p, q): row p of the left operand against row q of the right one. -/
theorem matmul_gu_apply (y0 : FVec Ideal S256x4096 .bf16) (y1 : FVec Ideal S256x4096 .bf16) (p : Fin 256) (q : Fin 256) :
    matmul dot_S256x4096_S256x4096_S256x256_1_1_0_0_n_n none y0 y1 (constant S256x256 .f32 0x00000000#32) (ix2 p q)
      = ∑ k : Fin 4096, y0 (ix2 p k) * y1 (ix2 q k) := by
  refine (Ideal.matmul_constant_zero_apply dot_S256x4096_S256x4096_S256x256_1_1_0_0_n_n none y0 y1 (ix2 p q)).trans ?_
  rw [← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k := funext fun a => Fin.ext (by
    match a with
    | ⟨0, _⟩ => exact lhs_gu_0 _ _
    | ⟨1, _⟩ => exact (lhs_gu_1 _ _).trans hk)
  have er : dot_S256x4096_S256x4096_S256x256_1_1_0_0_n_n.rhsIdx (ix2 p q) ((contrEquiv1 dot_S256x4096_S256x4096_S256x256_1_1_0_0_n_n 4096 rfl rfl).symm k) = ix2 q k := funext fun a => Fin.ext (by
    match a with
    | ⟨0, _⟩ => exact rhs_gu_0 _ _
    | ⟨1, _⟩ => exact (rhs_gu_1 _ _).trans hk)
  rw [el, er]

/-- The gate product at (p, q): activation row p against row q of the gate weights quantised against that row's largest magnitude. -/
theorem gate_entry (x0 : Vec Ideal S256x4096 .bf16) (x1 : Vec Ideal S256x4096 .f32) (p q : Fin 256) :
    k0_pay3 x0 x1 (ix2 p q)
      = Cert.Quant.dot (fun k : Fin 4096 => x0 (ix2 p k)) (Cert.Quant.fqAll (fun k : Fin 4096 => x1 (ix2 q k))) := by
  unfold k0_pay3 k0_pay2
  dsimp only
  refine (matmul_gu_apply _ _ p q).trans ?_
  unfold Cert.Quant.dot
  refine Finset.sum_congr rfl fun k _ => ?_
  refine congrArg₂ (· * ·) ?_ ?_
  · rw [shapeCast_self]
  · exact quant_elem x1 _ _ (ix2 q k) _
      ((scalecol_apply _ _ _ q k).trans (congrArg Cert.Quant.scale (rowmax_apply x1 _ _ _ q)))

/-- The up product at (p, q): activation row p against row q of the up weights quantised against that row's largest magnitude. -/
theorem up_entry (x0 : Vec Ideal S256x4096 .bf16) (x1 : Vec Ideal S256x4096 .f32) (p q : Fin 256) :
    k0_pay4 x0 x1 (ix2 p q)
      = Cert.Quant.dot (fun k : Fin 4096 => x0 (ix2 p k)) (Cert.Quant.fqAll (fun k : Fin 4096 => x1 (ix2 q k))) := by
  unfold k0_pay4 k0_pay2
  dsimp only
  refine (matmul_gu_apply _ _ p q).trans ?_
  unfold Cert.Quant.dot
  refine Finset.sum_congr rfl fun k _ => ?_
  refine congrArg₂ (· * ·) ?_ ?_
  · rw [shapeCast_self]
  · exact quant_elem x1 _ _ (ix2 q k) _
      ((scalecol_apply _ _ _ q k).trans (congrArg Cert.Quant.scale (rowmax_apply x1 _ _ _ q)))

end GateUp

/-- Entry (p, q) of what the gate/up kernel stores. -/
theorem gate_up_entry (x0 : Vec Ideal S256x4096 .bf16) (x1 x2 : Vec Ideal S256x4096 .f32) (p q : Fin 256) :
    k0_pay1 (k0_pay3 x0 x1) (k0_pay4 x0 x2) (k0_pay5 x0 x1) (ix2 p q)
      = Cert.Quant.hEntry (fun k : Fin 4096 => x0 (ix2 p k)) (fun k : Fin 4096 => x1 (ix2 q k)) (fun k : Fin 4096 => x2 (ix2 q k)) := by
  have hg := GateUp.gate_entry x0 x1 p q
  have hu := GateUp.up_entry x0 x2 p q
  show (k0_pay3 x0 x1 (ix2 p q) * Ideal.logistic (k0_pay3 x0 x1 (ix2 p q))) * k0_pay4 x0 x2 (ix2 p q) = _
  rw [hg, hu]
  rfl

end Cert.KernelIdeal.Body

end
-- ==== Proof.RegionGateUp.lean ====
/-
  The first region as one array.  Grid point t holds rows 256 t … 256 t + 255 of the gate and up weights and the whole
  activation matrix, and writes columns 256 t … 256 t + 255 of the hidden matrix; the 43 column blocks tile its 11008
  columns.  So after the region entry (p, j) of the hidden matrix is silu(gate) * up of activation row p against rows
  j of the two weight matrices, whatever the contents the region was entered with.
-/
import proofs.«117782_j78151224918032_1_alg».proof.Proof.Gen.KernelIdeal.Frame
import proofs.«117782_j78151224918032_1_alg».proof.Proof.Quant
import proofs.«117782_j78151224918032_1_alg».proof.Proof.BodyGateUp
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero block offsets, however they are spelt. -/
theorem gate_up_zero_offsets : (![0, 0] : Fin 2 → Nat) = fun _ => 0 := funext fun a => by fin_cases a <;> rfl

/-- What the hidden matrix ends holding: entry (p, j) is silu(gate) * up of activation row p against the quantised rows j
    of the gate and up weights. -/
abbrev gateUpG (x : S256x4096.Idx → EReal) (wg wu : S11008x4096.Idx → EReal) : S256x11008.Idx → EReal := fun i =>
  Cert.Quant.hEntry (fun k : Fin 4096 => x (ix2 (i 0) k)) (fun k : Fin 4096 => wg (ix2 (i 1) k))
    (fun k : Fin 4096 => wu (ix2 (i 1) k))

/-- The block index maps over the 43 grid points: the activation matrix is always its one whole block, each weight block's
    row index is the output block's column index, and the output's blocks sit in row block 0 at column blocks 0 … 42. -/
theorem gate_up_index_facts : ∀ t : Fin cfg0.N, win0_0.index t (0 : Fin 2) = 0
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) = 0
    ∧ win0_3.index t (1 : Fin 2) ≤ 42 :=
  (by decide +kernel : ∀ t : Fin grid0.N, _)

/-- Every column block of the hidden matrix is some grid point's. -/
theorem gate_up_index_onto : ∀ q1 : Fin 43, ∃ t : Fin cfg0.N, win0_3.index t = ![0, q1.val] :=
  (by decide +kernel : ∀ q1 : Fin 43, ∃ t : Fin grid0.N, win0_3.index t = ![0, q1.val])

/-- The activation window's block at any point is the whole activation matrix: entry (p, k) of the block is entry (r, k)
    of the array for the row r with the same number. -/
theorem gate_up_act_block (c : Dev nD) (t : Fin cfg0.N) (p : Fin 256) (k : Fin 4096) (r : Fin 256) (hr : r.val = p.val) :
    (iblk0 (F := Ideal) V c 0 t : Vec Ideal S256x4096 .bf16) (ix2 p k) = (V c main_v11 : S256x4096.Idx → EReal) (ix2 r k) := by
  obtain ⟨e0, e1, e2, e3, e4, e5, e6, e7⟩ := gate_up_index_facts t
  unfold iblk0
  show (V c main_v11 : S256x4096.Idx → EReal) (((cfg0.win 0).blk t).view.emb (ix2 p k)) = _
  congr 1
  funext a; apply Fin.ext
  match a with
  | ⟨0, _⟩ => show win0_0.index t (0 : Fin 2) * 256 + 1 * p.val = r.val; omega
  | ⟨1, _⟩ => show win0_0.index t (1 : Fin 2) * 4096 + 1 * k.val = k.val; omega

/-- The gate window's block at point t is rows 256 t … 256 t + 255 of the gate weights. -/
theorem gate_up_gate_block (c : Dev nD) (t : Fin cfg0.N) (q : Fin 256) (k : Fin 4096) (n : Fin 11008)
    (hn : n.val = win0_3.index t (1 : Fin 2) * 256 + q.val) :
    (iblk0 (F := Ideal) V c 1 t : Vec Ideal S256x4096 .f32) (ix2 q k) = (V c main_arg1 : S11008x4096.Idx → EReal) (ix2 n k) := by
  obtain ⟨e0, e1, e2, e3, e4, e5, e6, e7⟩ := gate_up_index_facts t
  unfold iblk0
  show (V c main_arg1 : S11008x4096.Idx → EReal) (((cfg0.win 1).blk t).view.emb (ix2 q k)) = _
  congr 1
  funext a; apply Fin.ext
  match a with
  | ⟨0, _⟩ => show win0_1.index t (0 : Fin 2) * 256 + 1 * q.val = n.val; omega
  | ⟨1, _⟩ => show win0_1.index t (1 : Fin 2) * 4096 + 1 * k.val = k.val; omega

/-- The up window's block at point t is rows 256 t … 256 t + 255 of the up weights. -/
theorem gate_up_up_block (c : Dev nD) (t : Fin cfg0.N) (q : Fin 256) (k : Fin 4096) (n : Fin 11008)
    (hn : n.val = win0_3.index t (1 : Fin 2) * 256 + q.val) :
    (iblk0 (F := Ideal) V c 2 t : Vec Ideal S256x4096 .f32) (ix2 q k) = (V c main_arg2 : S11008x4096.Idx → EReal) (ix2 n k) := by
  obtain ⟨e0, e1, e2, e3, e4, e5, e6, e7⟩ := gate_up_index_facts t
  unfold iblk0
  show (V c main_arg2 : S11008x4096.Idx → EReal) (((cfg0.win 2).blk t).view.emb (ix2 q k)) = _
  congr 1
  funext a; apply Fin.ext
  match a with
  | ⟨0, _⟩ => show win0_2.index t (0 : Fin 2) * 256 + 1 * q.val = n.val; omega
  | ⟨1, _⟩ => show win0_2.index t (1 : Fin 2) * 4096 + 1 * k.val = k.val; omega

/-- What grid point t writes back is block t of the closed form of the arrays the region was entered with. -/
theorem gate_up_flushed_eq (c : Dev nD) (t : Fin cfg0.N) :
    (dat0 (F := Ideal) V c).flushed 3 t
      = ((cfg0.win 3).blk t).view.read (Elt Ideal) (gateUpG (V c main_v11) (V c main_arg1) (V c main_arg2)) := by
  show (cfg0.win 3).cut (grid0.coords t) ((dat0 (F := Ideal) V c).after 3 t) = _
  rw [after0_3]
  unfold out0_3
  rw [View.canon_unit_zero gate_up_zero_offsets]
  simp only [View.ld_unit_zero (S := S256x4096) gate_up_zero_offsets]
  obtain ⟨e0, e1, e2, e3, e4, e5, e6, e7⟩ := gate_up_index_facts t
  funext j
  obtain ⟨p, q, rfl⟩ : ∃ (p : Fin 256) (q : Fin 256), j = ix2 p q := ⟨j 0, j 1, eq_ix2 j⟩
  show k0_pay1 (k0_pay3 (iblk0 (F := Ideal) V c 0 t) (iblk0 (F := Ideal) V c 1 t))
      (k0_pay4 (iblk0 (F := Ideal) V c 0 t) (iblk0 (F := Ideal) V c 2 t))
      (k0_pay5 (iblk0 (F := Ideal) V c 0 t) (iblk0 (F := Ideal) V c 1 t)) (ix2 p q)
    = gateUpG (V c main_v11) (V c main_arg1) (V c main_arg2) (((cfg0.win 3).blk t).view.emb (ix2 p q))
  refine (Body.gate_up_entry (iblk0 (F := Ideal) V c 0 t) (iblk0 (F := Ideal) V c 1 t) (iblk0 (F := Ideal) V c 2 t) p q).trans ?_
  have h0 : ((((cfg0.win 3).blk t).view.emb (ix2 p q)) 0).val = p.val := by
    show win0_3.index t (0 : Fin 2) * 256 + 1 * p.val = p.val; omega
  have h1 : ((((cfg0.win 3).blk t).view.emb (ix2 p q)) 1).val = win0_3.index t (1 : Fin 2) * 256 + q.val := by
    show win0_3.index t (1 : Fin 2) * 256 + 1 * q.val = _; omega
  have hx := funext fun k => gate_up_act_block V c t p k ((((cfg0.win 3).blk t).view.emb (ix2 p q)) 0) h0
  have hg := funext fun k => gate_up_gate_block V c t q k ((((cfg0.win 3).blk t).view.emb (ix2 p q)) 1) h1
  have hu := funext fun k => gate_up_up_block V c t q k ((((cfg0.win 3).blk t).view.emb (ix2 p q)) 1) h1
  exact (congrArg₂ (fun a b => Cert.Quant.hEntry a b _) hx hg).trans (congrArg (Cert.Quant.hEntry _ _) hu)

/-- An index of the hidden matrix is in point t's block iff each coordinate is in the block's range on its axis. -/
theorem gate_up_mem_block (t : Fin cfg0.N) (i : S256x11008.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v12).slice (win0_3.rect t)).set ↔ _
  rw [View.set_slice_whole, Rect.mem_set_unit]
  exact Iff.rfl

/-- The hidden matrix the first region leaves, entry by entry, from the arrays it was entered with. -/
theorem gate_up_array (c : Dev nD) :
    (dat0 (F := Ideal) V c).arrAt 3 cfg0.N = (fun i : S256x11008.Idx =>
      Cert.Quant.hEntry (fun k : Fin 4096 => (V c main_v11 : S256x4096.Idx → EReal) (ix2 (i 0) k))
        (fun k : Fin 4096 => (V c main_arg1 : S11008x4096.Idx → EReal) (ix2 (i 1) k))
        (fun k : Fin 4096 => (V c main_arg2 : S11008x4096.Idx → EReal) (ix2 (i 1) k))) := by
  refine (dat0 (F := Ideal) V c).arrAt_eq_of_cover 3 (gateUpG (V c main_v11) (V c main_arg1) (V c main_arg2))
    (fun t _ => gate_up_flushed_eq V c t) (fun i => ?_)
  have hi0 : (i 0).val < 256 := (i 0).isLt
  have hi1 : (i 1).val < 11008 := (i 1).isLt
  obtain ⟨t, ht⟩ := gate_up_index_onto ⟨(i 1).val / 256, by omega⟩
  have q0 : win0_3.index t (0 : Fin 2) = 0 := congrFun ht 0
  have q1 : win0_3.index t (1 : Fin 2) = (i 1).val / 256 := congrFun ht 1
  refine ⟨t, flush0_3 t, ?_⟩
  rw [gate_up_mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

end Cert.KernelIdeal.Regions

end
-- ==== Proof.BodyDown.lean ====
/-
  The down-projection body at one entry.  From a block of 128 rows of the down weights and the whole quantised hidden
  matrix, entry (p, q) of the stored block is the inner product of hidden row p with row q of the weights quantised
  against that row's own largest magnitude.
-/
import proofs.«117782_j78151224918032_1_alg».proof.Proof.Gen.KernelIdeal.Skeleton
import proofs.«117782_j78151224918032_1_alg».proof.Proof.Quant
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

namespace Down

/-- The largest magnitude along a row: the row maximum of the magnitudes of an [R, K] block at row q. -/
theorem rowmax_apply {R K : ℕ} (x : FVec Ideal ⟨2, ![R, K]⟩ .f32) (h : Shape.Reduces ⟨2, ![R, K]⟩ [1] ⟨1, ![R]⟩)
    (hφ : FKind.Formats .f32) (hacc : (0xFF800000#32 : BitVec 32) = FKind.maximumf.neutral .f32 hφ) (q : Fin R) :
    multiReduction .maximumf [1] ⟨1, ![R]⟩ (absf x) 0xFF800000#32 h hφ hacc (ix1 q)
      = Cert.Quant.amax (fun k : Fin K => x (ix2 q k)) := by
  rw [Ideal.multiReduction_maximumf_single]
  have e : ∀ k : Fin K, h.lift (ix1 q) k = ix2 q k := fun k => funext fun a => Fin.ext (by
    match a with
    | ⟨0, _⟩ => rfl
    | ⟨1, _⟩ => rfl)
  show Finset.univ.fold max Cert.Quant.cBot (fun k : Fin K => Cert.Quant.absE (x (h.lift (ix1 q) k))) = _
  unfold Cert.Quant.amax
  exact congrArg (fun f : Fin K → EReal => Finset.univ.fold max Cert.Quant.cBot f) (funext fun k => by rw [e k])

/-- A column [a, 1] spread over b columns reads, at (p, c), the column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The quantisation step of row q, spread over the row: the row's largest magnitude over 127, plus the small constant. -/
theorem scalecol_apply {R K : ℕ} (m : FVec Ideal ⟨1, ![R]⟩ .f32) (hsc : (⟨1, ![R]⟩ : Shape).ShapeCasts ⟨2, ![R, 1]⟩)
    (hbc : (⟨2, ![R, 1]⟩ : Shape).Broadcasts ⟨2, ![R, K]⟩) (q : Fin R) (k : Fin K) :
    broadcastTo ⟨2, ![R, K]⟩
        (addf (divf (shapeCast ⟨2, ![R, 1]⟩ m hsc) (broadcast ⟨2, ![R, 1]⟩ (Scalar.ofBits (F := Ideal) .f32 0x42FE0000#32)))
          (broadcast ⟨2, ![R, 1]⟩ (Scalar.ofBits (F := Ideal) .f32 0x322BCC77#32))) hbc (ix2 q k)
      = Cert.Quant.scale (m (ix1 q)) := by
  refine (broadcastTo_a1_ab_apply _ hbc q k).trans ?_
  have e : shapeCast ⟨2, ![R, 1]⟩ m hsc (ix2 q (0 : Fin 1)) = m (ix1 q) :=
    shapeCast_apply m hsc (ix2 q (0 : Fin 1)) (ix1 q) (by
      rw [Shape.rowMajor_val_two, Shape.rowMajor_val_one]; show q.val = q.val * 1 + 0; omega)
  show Ideal.div (shapeCast ⟨2, ![R, 1]⟩ m hsc (ix2 q (0 : Fin 1))) Cert.Quant.cHi + Cert.Quant.cEps = _
  rw [e]; rfl

/-- One entry of a block quantised against an array of steps: the clipped rounded quotient times the step. -/
theorem quant_elem {s : Shape} (x B : FVec Ideal s .f32) (hlt : FTy.bits .bf16 < FTy.bits .f32) (i : s.Idx) (sc : EReal) (hB : B i = sc) :
    (truncf .bf16 (mulf (minimumf (broadcast s (Scalar.ofBits (F := Ideal) .f32 0x42FE0000#32))
        (maximumf (broadcast s (Scalar.ofBits (F := Ideal) .f32 0xC3000000#32)) (roundeven (divf x B)))) B) hlt : FVec Ideal s .bf16) i
      = Cert.Quant.fq sc (x i) := by
  subst hB; rfl

theorem lhs_down_0 (i : S256x128.Idx) (c : dot_S256x11008_S128x11008_S256x128_1_1_0_0_n_n.contr.Idx) :
    (dot_S256x11008_S128x11008_S256x128_1_1_0_0_n_n.lhsIdx i c 0).val = (i 0).val := by
  unfold DotDims.lhsIdx
  rw [dif_neg (show ¬(0 : Fin S256x11008.rank) ∈ dot_S256x11008_S128x11008_S256x128_1_1_0_0_n_n.lhsBatch by decide), dif_pos (show (0 : Fin S256x11008.rank) ∈ dot_S256x11008_S128x11008_S256x128_1_1_0_0_n_n.lhsNonContracting by decide)]
  rfl
theorem lhs_down_1 (i : S256x128.Idx) (c : dot_S256x11008_S128x11008_S256x128_1_1_0_0_n_n.contr.Idx) :
    (dot_S256x11008_S128x11008_S256x128_1_1_0_0_n_n.lhsIdx i c 1).val = (c ⟨0, by decide⟩).val :=
  dot_S256x11008_S128x11008_S256x128_1_1_0_0_n_n.lhsIdx_val_of_single rfl i c
theorem rhs_down_0 (i : S256x128.Idx) (c : dot_S256x11008_S128x11008_S256x128_1_1_0_0_n_n.contr.Idx) :
    (dot_S256x11008_S128x11008_S256x128_1_1_0_0_n_n.rhsIdx i c 0).val = (i 1).val := by
  unfold DotDims.rhsIdx
  rw [dif_neg (show ¬(0 : Fin S128x11008.rank) ∈ dot_S256x11008_S128x11008_S256x128_1_1_0_0_n_n.rhsBatch by decide), dif_pos (show (0 : Fin S128x11008.rank) ∈ dot_S256x11008_S128x11008_S256x128_1_1_0_0_n_n.rhsNonContracting by decide)]
  rfl
theorem rhs_down_1 (i : S256x128.Idx) (c : dot_S256x11008_S128x11008_S256x128_1_1_0_0_n_n.contr.Idx) :
    (dot_S256x11008_S128x11008_S256x128_1_1_0_0_n_n.rhsIdx i c 1).val = (c ⟨0, by decide⟩).val :=
  dot_S256x11008_S128x11008_S256x128_1_1_0_0_n_n.rhsIdx_val_of_single rfl i c

/-- The block product into a zero accumulator at (p, q): row p of the left operand against row q of the right one. -/
theorem matmul_down_apply (y0 : FVec Ideal S256x11008 .bf16) (y1 : FVec Ideal S128x11008 .bf16) (p : Fin 256) (q : Fin 128) :
    matmul dot_S256x11008_S128x11008_S256x128_1_1_0_0_n_n none y0 y1 (constant S256x128 .f32 0x00000000#32) (ix2 p q)
      = ∑ k : Fin 11008, y0 (ix2 p k) * y1 (ix2 q k) := by
  refine (Ideal.matmul_constant_zero_apply dot_S256x11008_S128x11008_S256x128_1_1_0_0_n_n none y0 y1 (ix2 p q)).trans ?_
  rw [← Equiv.sum_comp (contrEquiv1 dot_S256x11008_S128x11008_S256x128_1_1_0_0_n_n 11008 rfl rfl).symm]
  refine Finset.sum_congr rfl fun k _ => ?_
  have hk := contrEquiv1_symm_val dot_S256x11008_S128x11008_S256x128_1_1_0_0_n_n 11008 rfl rfl k
  have el : dot_S256x11008_S128x11008_S256x128_1_1_0_0_n_n.lhsIdx (ix2 p q) ((contrEquiv1 dot_S256x11008_S128x11008_S256x128_1_1_0_0_n_n 11008 rfl rfl).symm k) = ix2 p k := funext fun a => Fin.ext (by
    match a with
    | ⟨0, _⟩ => exact lhs_down_0 _ _
    | ⟨1, _⟩ => exact (lhs_down_1 _ _).trans hk)
  have er : dot_S256x11008_S128x11008_S256x128_1_1_0_0_n_n.rhsIdx (ix2 p q) ((contrEquiv1 dot_S256x11008_S128x11008_S256x128_1_1_0_0_n_n 11008 rfl rfl).symm k) = ix2 q k := funext fun a => Fin.ext (by
    match a with
    | ⟨0, _⟩ => exact rhs_down_0 _ _
    | ⟨1, _⟩ => exact (rhs_down_1 _ _).trans hk)
  rw [el, er]

end Down

/-- Entry (p, q) of what the down kernel stores. -/
theorem down_entry (x0 : Vec Ideal S256x11008 .bf16) (x1 : Vec Ideal S128x11008 .f32) (p : Fin 256) (q : Fin 128) :
    k1_pay1 x0 x1 (ix2 p q)
      = Cert.Quant.dEntry (fun k : Fin 11008 => x0 (ix2 p k)) (fun k : Fin 11008 => x1 (ix2 q k)) := by
  unfold k1_pay1
  dsimp only
  refine (Down.matmul_down_apply _ _ p q).trans ?_
  unfold Cert.Quant.dEntry Cert.Quant.dot
  refine Finset.sum_congr rfl fun k _ => ?_
  refine congrArg₂ (· * ·) ?_ ?_
  · rw [shapeCast_self]
  · exact Down.quant_elem x1 _ _ (ix2 q k) _
      ((Down.scalecol_apply _ _ _ q k).trans (congrArg Cert.Quant.scale (Down.rowmax_apply x1 _ _ _ q)))

end Cert.KernelIdeal.Body

end
-- ==== Proof.RegionDown.lean ====
/-
  The second region as one array.  Grid point t holds rows 128 t … 128 t + 127 of the down weights and the whole
  quantised hidden matrix, and writes columns 128 t … 128 t + 127 of the output; the 32 column blocks tile its 4096
  columns.  So after the region entry (p, n) of the output is the inner product of hidden row p with the quantised row
  n of the down weights, whatever the contents the region was entered with.
-/
import proofs.«117782_j78151224918032_1_alg».proof.Proof.Gen.KernelIdeal.Frame
import proofs.«117782_j78151224918032_1_alg».proof.Proof.Quant
import proofs.«117782_j78151224918032_1_alg».proof.Proof.BodyDown
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero block offsets, however they are spelt. -/
theorem down_zero_offsets : (![0, 0] : Fin 2 → Nat) = fun _ => 0 := funext fun a => by fin_cases a <;> rfl

/-- What the output matrix ends holding: entry (p, n) is hidden row p against the quantised row n of the down weights. -/
abbrev downG (h : S256x11008.Idx → EReal) (wd : S4096x11008.Idx → EReal) : S256x4096.Idx → EReal := fun i =>
  Cert.Quant.dEntry (fun k : Fin 11008 => h (ix2 (i 0) k)) (fun k : Fin 11008 => wd (ix2 (i 1) k))

/-- The block index maps over the 32 grid points: the hidden matrix is always its one whole block, the weight block's row
    index is the output block's column index, and the output's blocks sit in row block 0 at column blocks 0 … 31. -/
theorem down_index_facts : ∀ t : Fin cfg1.N, win1_0.index t (0 : Fin 2) = 0
    ∧ win1_0.index t (1 : Fin 2) = 0
    ∧ win1_1.index t (0 : Fin 2) = win1_2.index t (1 : Fin 2)
    ∧ win1_1.index t (1 : Fin 2) = 0
    ∧ win1_2.index t (0 : Fin 2) = 0
    ∧ win1_2.index t (1 : Fin 2) ≤ 31 :=
  (by decide +kernel : ∀ t : Fin grid1.N, _)

/-- Every column block of the output is some grid point's. -/
theorem down_index_onto : ∀ q1 : Fin 32, ∃ t : Fin cfg1.N, win1_2.index t = ![0, q1.val] :=
  (by decide +kernel : ∀ q1 : Fin 32, ∃ t : Fin grid1.N, win1_2.index t = ![0, q1.val])

/-- The hidden window's block at any point is the whole hidden matrix: entry (p, k) of the block is entry (r, k) of the
    array for the row r with the same number. -/
theorem down_hidden_block (c : Dev nD) (t : Fin cfg1.N) (p : Fin 256) (k : Fin 11008) (r : Fin 256) (hr : r.val = p.val) :
    (iblk1 (F := Ideal) V c 0 t : Vec Ideal S256x11008 .bf16) (ix2 p k) = (V c main_v23 : S256x11008.Idx → EReal) (ix2 r k) := by
  obtain ⟨e0, e1, e2, e3, e4, e5⟩ := down_index_facts t
  unfold iblk1
  show (V c main_v23 : S256x11008.Idx → EReal) (((cfg1.win 0).blk t).view.emb (ix2 p k)) = _
  congr 1
  funext a; apply Fin.ext
  match a with
  | ⟨0, _⟩ => show win1_0.index t (0 : Fin 2) * 256 + 1 * p.val = r.val; omega
  | ⟨1, _⟩ => show win1_0.index t (1 : Fin 2) * 11008 + 1 * k.val = k.val; omega

/-- The weight window's block at point t is rows 128 t … 128 t + 127 of the down weights. -/
theorem down_weight_block (c : Dev nD) (t : Fin cfg1.N) (q : Fin 128) (k : Fin 11008) (n : Fin 4096)
    (hn : n.val = win1_2.index t (1 : Fin 2) * 128 + q.val) :
    (iblk1 (F := Ideal) V c 1 t : Vec Ideal S128x11008 .f32) (ix2 q k) = (V c main_arg3 : S4096x11008.Idx → EReal) (ix2 n k) := by
  obtain ⟨e0, e1, e2, e3, e4, e5⟩ := down_index_facts t
  unfold iblk1
  show (V c main_arg3 : S4096x11008.Idx → EReal) (((cfg1.win 1).blk t).view.emb (ix2 q k)) = _
  congr 1
  funext a; apply Fin.ext
  match a with
  | ⟨0, _⟩ => show win1_1.index t (0 : Fin 2) * 128 + 1 * q.val = n.val; omega
  | ⟨1, _⟩ => show win1_1.index t (1 : Fin 2) * 11008 + 1 * k.val = k.val; omega

/-- What grid point t writes back is block t of the closed form of the arrays the region was entered with. -/
theorem down_flushed_eq (c : Dev nD) (t : Fin cfg1.N) :
    (dat1 (F := Ideal) V c).flushed 2 t
      = ((cfg1.win 2).blk t).view.read (Elt Ideal) (downG (V c main_v23) (V c main_arg3)) := by
  show (cfg1.win 2).cut (grid1.coords t) ((dat1 (F := Ideal) V c).after 2 t) = _
  rw [after1_2]
  unfold out1_2
  rw [View.canon_unit_zero down_zero_offsets]
  simp only [View.ld_unit_zero (S := S256x11008) down_zero_offsets, View.ld_unit_zero (S := S128x11008) down_zero_offsets]
  obtain ⟨e0, e1, e2, e3, e4, e5⟩ := down_index_facts t
  funext j
  obtain ⟨p, q, rfl⟩ : ∃ (p : Fin 256) (q : Fin 128), j = ix2 p q := ⟨j 0, j 1, eq_ix2 j⟩
  show k1_pay1 (iblk1 (F := Ideal) V c 0 t) (iblk1 (F := Ideal) V c 1 t) (ix2 p q)
    = downG (V c main_v23) (V c main_arg3) (((cfg1.win 2).blk t).view.emb (ix2 p q))
  refine (Body.down_entry (iblk1 (F := Ideal) V c 0 t) (iblk1 (F := Ideal) V c 1 t) p q).trans ?_
  have h0 : ((((cfg1.win 2).blk t).view.emb (ix2 p q)) 0).val = p.val := by
    show win1_2.index t (0 : Fin 2) * 256 + 1 * p.val = p.val; omega
  have h1 : ((((cfg1.win 2).blk t).view.emb (ix2 p q)) 1).val = win1_2.index t (1 : Fin 2) * 128 + q.val := by
    show win1_2.index t (1 : Fin 2) * 128 + 1 * q.val = _; omega
  exact congrArg₂ Cert.Quant.dEntry
    (funext fun k => down_hidden_block V c t p k ((((cfg1.win 2).blk t).view.emb (ix2 p q)) 0) h0)
    (funext fun k => down_weight_block V c t q k ((((cfg1.win 2).blk t).view.emb (ix2 p q)) 1) h1)

/-- An index of the output is in point t's block iff each coordinate is in the block's range on its axis. -/
theorem down_mem_block (t : Fin cfg1.N) (i : S256x4096.Idx) :
    i ∈ ((cfg1.win 2).blk t).view.set ↔ ∀ a : Fin 2, win1_2.index t a * S256x128.size a ≤ (i a).val ∧ (i a).val < win1_2.index t a * S256x128.size a + S256x128.size a := by
  show i ∈ ((View.whole main_v24).slice (win1_2.rect t)).set ↔ _
  rw [View.set_slice_whole, Rect.mem_set_unit]
  exact Iff.rfl

/-- The output matrix the second region leaves, entry by entry, from the arrays it was entered with. -/
theorem down_array (c : Dev nD) :
    (dat1 (F := Ideal) V c).arrAt 2 cfg1.N = (fun i : S256x4096.Idx =>
      Cert.Quant.dEntry (fun k : Fin 11008 => (V c main_v23 : S256x11008.Idx → EReal) (ix2 (i 0) k))
        (fun k : Fin 11008 => (V c main_arg3 : S4096x11008.Idx → EReal) (ix2 (i 1) k))) := by
  refine (dat1 (F := Ideal) V c).arrAt_eq_of_cover 2 (downG (V c main_v23) (V c main_arg3))
    (fun t _ => down_flushed_eq V c t) (fun i => ?_)
  have hi0 : (i 0).val < 256 := (i 0).isLt
  have hi1 : (i 1).val < 4096 := (i 1).isLt
  obtain ⟨t, ht⟩ := down_index_onto ⟨(i 1).val / 128, by omega⟩
  have q0 : win1_2.index t (0 : Fin 2) = 0 := congrFun ht 0
  have q1 : win1_2.index t (1 : Fin 2) = (i 1).val / 128 := congrFun ht 1
  refine ⟨t, flush1_2 t, ?_⟩
  rw [down_mem_block]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 128 ≤ (i 1).val ∧ (i 1).val < win1_2.index t (1 : Fin 2) * 128 + 128; omega

end Cert.KernelIdeal.Regions

end
-- ==== Proof.KernelValue.lean ====
/-
  The kernel program's result as the quantised gated MLP.  Chain the pieces: the activations reshaped to 256 rows and
  quantised as a whole; the first region's hidden matrix; its whole-matrix quantisation; the second region's output; the
  reshape back to 8 × 32 rows.  Over 256 rows this is the MLP of the reshaped activations, and row 32 b + s of the
  reshaped matrix is row (b, s) of the original, so re-indexing the rows gives the MLP over the rows (b, s).
-/
import proofs.«117782_j78151224918032_1_alg».proof.Proof.Quant
import proofs.«117782_j78151224918032_1_alg».proof.Proof.HostStretches
import proofs.«117782_j78151224918032_1_alg».proof.Proof.RegionGateUp
import proofs.«117782_j78151224918032_1_alg».proof.Proof.RegionDown
import Idealize.ShloMosaic.Lib.ValueIdx
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.ShloMosaic.ValueIdx Idealize.SL.Sem
open Cert.Quant

/-- Row (b, s) of the 8 × 32 rows is row 32 b + s of the 256. -/
def rowEquiv : Fin 8 × Fin 32 ≃ Fin 256 := finProdFinEquiv

theorem rowEquiv_val (b : Fin 8) (s : Fin 32) : (rowEquiv (b, s)).val = s.val + 32 * b.val := rfl

/-- The activations reshaped to 256 rows, read at row 32 b + s. -/
theorem cast_rows (x : S8x32x4096.Idx → EReal) (b : Fin 8) (s : Fin 32) (k : Fin 4096) :
    shapeCast S256x4096 x shapeCasts_S8x32x4096_S256x4096 (ix2 (rowEquiv (b, s)) k) = x (ix3 b s k) :=
  shapeCast_apply x shapeCasts_S8x32x4096_S256x4096 _ _ (by
    rw [Shape.rowMajor_val_three, Shape.rowMajor_val_two]
    show (b.val * 32 + s.val) * 4096 + k.val = (rowEquiv (b, s)).val * 4096 + k.val
    rw [rowEquiv_val]; ring)

/-- The output reshaped back to 8 × 32 rows, read at row (b, s). -/
theorem cast_back (d : S256x4096.Idx → EReal) (b : Fin 8) (s : Fin 32) (n : Fin 4096) :
    shapeCast S8x32x4096 d shapeCasts_S256x4096_S8x32x4096 (ix3 b s n) = d (ix2 (rowEquiv (b, s)) n) :=
  shapeCast_apply d shapeCasts_S256x4096_S8x32x4096 _ _ (by
    rw [Shape.rowMajor_val_three, Shape.rowMajor_val_two]
    show (rowEquiv (b, s)).val * 4096 + n.val = (b.val * 32 + s.val) * 4096 + n.val
    rw [rowEquiv_val]; ring)

/-- Quantising a matrix indexed by shape indices is quantising it indexed by pairs of coordinates. -/
theorem fqAll_pairs {a b : ℕ} (f : (⟨2, ![a, b]⟩ : Shape).Idx → EReal) (r : Fin a) (k : Fin b) :
    fqAll f (ix2 r k) = fqAll (fun q : Fin a × Fin b => f (ix2 q.1 q.2)) (r, k) :=
  (fqAll_equiv (idxEquiv2 (n0 := a) (n1 := b)).symm f (r, k)).symm

variable (m : (ℓ : Loc nD τ sig) → Buf (Elt Ideal) ℓ) (ρ : Dev nD → PrngReg)

/-- The four inputs as launched, at their literal types. -/
abbrev inX (c : Dev nD) : S8x32x4096.Idx → EReal := m ((c : Thread nD τ).loc main_arg0)
abbrev inG (c : Dev nD) : S11008x4096.Idx → EReal := m ((c : Thread nD τ).loc main_arg1)
abbrev inU (c : Dev nD) : S11008x4096.Idx → EReal := m ((c : Thread nD τ).loc main_arg2)
abbrev inD (c : Dev nD) : S4096x11008.Idx → EReal := m ((c : Thread nD τ).loc main_arg3)

/-- The activations as 256 rows. -/
def x256 (c : Dev nD) : S256x4096.Idx → EReal := shapeCast S256x4096 (inX m c) shapeCasts_S8x32x4096_S256x4096

/-- The hidden matrix over 256 rows. -/
def h256 (c : Dev nD) : S256x11008.Idx → EReal := fun i =>
  hEntry (fun k : Fin 4096 => fqAll (x256 m c) (ix2 (i 0) k)) (fun k : Fin 4096 => inG m c (ix2 (i 1) k)) (fun k : Fin 4096 => inU m c (ix2 (i 1) k))

/-- The output over 256 rows. -/
def d256 (c : Dev nD) : S256x4096.Idx → EReal := fun i =>
  dEntry (fun k : Fin 11008 => fqAll (h256 m c) (ix2 (i 0) k)) (fun k : Fin 11008 => inD m c (ix2 (i 1) k))

/-- What the first region leaves is the hidden matrix of the quantised reshaped activations. -/
theorem hidden_array (c : Dev nD) : ((dat0 (V5 m ρ) c).arrAt 3 cfg0.N : S256x11008.Idx → EReal) = h256 m c := by
  refine (Regions.gate_up_array (V5 m ρ) c).trans ?_
  rw [Stretches.entry0_act m ρ c, Stretches.entry0_gate m ρ c, Stretches.entry0_up m ρ c]
  rfl

/-- What the second region leaves is the output over 256 rows. -/
theorem out_array (c : Dev nD) : ((dat1 (V11 m ρ) c).arrAt 2 cfg1.N : S256x4096.Idx → EReal) = d256 m c := by
  refine (Regions.down_array (V11 m ρ) c).trans ?_
  rw [Stretches.entry1_act m ρ c, Stretches.entry1_down m ρ c, hidden_array m ρ c]
  rfl

/-- Over 256 rows the output is the MLP of the reshaped activations. -/
theorem d256_eq (c : Dev nD) (r : Fin 256) (n : Fin 4096) :
    d256 m c (ix2 r n) = mlp (fun (r : Fin 256) (k : Fin 4096) => x256 m c (ix2 r k)) (fun (j : Fin 11008) (k : Fin 4096) => inG m c (ix2 j k))
      (fun (j : Fin 11008) (k : Fin 4096) => inU m c (ix2 j k)) (fun (n : Fin 4096) (k : Fin 11008) => inD m c (ix2 n k)) r n := by
  unfold d256 mlp
  refine congrArg (fun f => dEntry f _) (funext fun j => ?_)
  rw [show ((ix2 r n : S256x4096.Idx) 0) = r from rfl, fqAll_pairs (h256 m c) r j]
  refine congrArg (fun f => fqAll f (r, j)) (funext fun p => ?_)
  unfold h256 Cert.Quant.hidden
  refine congrArg (fun f => hEntry f _ _) (funext fun k => ?_)
  exact fqAll_pairs (x256 m c) p.1 k

/-- The kernel program's result, entry by entry: the quantised gated MLP over the rows (b, s). -/
theorem result_entry (c : Dev nD) (b : Fin 8) (s : Fin 32) (n : Fin 4096) :
    (W13 m ρ c (Proc.devRef .tc main_v25) : S8x32x4096.Idx → EReal) (ix3 b s n)
      = mlp (fun (r : Fin 8 × Fin 32) (k : Fin 4096) => inX m c (ix3 r.1 r.2 k)) (fun (j : Fin 11008) (k : Fin 4096) => inG m c (ix2 j k))
          (fun (j : Fin 11008) (k : Fin 4096) => inU m c (ix2 j k)) (fun (n : Fin 4096) (k : Fin 11008) => inD m c (ix2 n k)) (b, s) n := by
  rw [Stretches.exit_result m ρ c, out_array m ρ c, cast_back, d256_eq]
  have hx : (fun (r : Fin 8 × Fin 32) (k : Fin 4096) => inX m c (ix3 r.1 r.2 k))
      = fun (r : Fin 8 × Fin 32) (k : Fin 4096) => (fun (r : Fin 256) (k : Fin 4096) => x256 m c (ix2 r k)) (rowEquiv r) k :=
    funext fun r => funext fun k => (cast_rows (inX m c) r.1 r.2 k).symm
  rw [hx]
  exact (mlp_reindex rowEquiv _ _ _ _ (b, s) n).symm

end Cert.KernelIdeal.Whole

end
-- ==== Proof.InputsReal.lean ====
/-
  What the precondition says.  It is the conjunction, over the four inputs, of "every entry's magnitude is below plus
  infinity".  On the extended reals a number whose magnitude is below plus infinity is neither infinity: it is a real.
-/
import proofs.«117782_j78151224918032_1_alg».proof.Pre_finite_inputs
import proofs.«117782_j78151224918032_1_alg».proof.Proof.Quant
import Idealize.ShloMosaic.Lib.ReduceAll
import Idealize.ShloMosaic.Lib.ValueIdx
import Idealize.ShloMosaic.Lib.Pipeline.Value

noncomputable section

namespace Cert.Pre_finite_inputs.Reals

open Idealize.ShloMosaic Cert.Pre_finite_inputs Cert.Quant

/-- The rank-0 shape has one index. -/
instance : Subsingleton S_.Idx := ⟨fun a b => funext fun d => d.elim0⟩

/-- The word the magnitudes are compared with is plus infinity. -/
theorem inf_word : Ideal.ofBits .f32 0x7F800000#32 = (⊤ : EReal) := by
  simp [Ideal.ofBits, Ideal.ieee]

/-- A number whose magnitude is below plus infinity is a real number. -/
theorem isR_of_lt (x : EReal) (h : Ideal.cmp .olt (max x (-x)) (Ideal.ofBits .f32 0x7F800000#32) = 1#1) : IsR x := by
  rw [inf_word] at h
  have hlt : max x (-x) < ⊤ := by
    by_contra hn
    simp [Ideal.cmp, hn] at h
  have h1 : x < ⊤ := lt_of_le_of_lt (le_max_left _ _) hlt
  have h2 : -x < ⊤ := lt_of_le_of_lt (le_max_right _ _) hlt
  induction x using EReal.rec with
  | bot => simp at h2
  | coe r => exact ⟨r, rfl⟩
  | top => simp at h1

variable [Facts]
open Facts

/-- One input's conjunct: if the `and` over all entries of "magnitude below plus infinity" is one, every entry is real. -/
theorem all_real {S : Shape} {axes : List (Fin S.rank)} (a : FVec Ideal S .f32) (hb : S_.BroadcastsInDim S (![] : Fin 0 → Fin S.rank))
    (hr : S.ReducesTo axes S_) (hu : 0 < S_.numel)
    (h : Host.reduce IntOp.andi (cmpf .olt (Host.absf a) (broadcastInDim S ![] hb (constant (F := Ideal) S_ .f32 0x7F800000#32)))
          (constantI S_ 1 1#1) hr hu ValueIdx.ix0 = 1#1) (i : S.Idx) : IsR (a i) := by
  have hi := Host.reduce_andi_all _ _ hr hu ValueIdx.ix0 h i
  refine isR_of_lt (a i) ?_
  have hbc : broadcastInDim S ![] hb (constant (F := Ideal) S_ .f32 0x7F800000#32) i = Ideal.ofBits .f32 0x7F800000#32 :=
    broadcastInDim_apply _ hb _ i ValueIdx.ix0 (fun a => a.elim0)
  have : cmpf .olt (Host.absf a) (broadcastInDim S ![] hb (constant (F := Ideal) S_ .f32 0x7F800000#32)) i
      = Ideal.cmp .olt (max (a i) (-(a i))) (broadcastInDim S ![] hb (constant (F := Ideal) S_ .f32 0x7F800000#32) i) := rfl
  rw [this, hbc] at hi
  exact hi

/-- Under the precondition every entry of every input is a real number. -/
theorem inputs_real (a0 : FVec Ideal S8x32x4096 .f32) (a1 a2 : FVec Ideal S11008x4096 .f32) (a3 : FVec Ideal S4096x11008 .f32)
    (h : fn (F := Ideal) a0 a1 a2 a3 = fun _ => 1#1) :
    (∀ i, IsR (a0 i)) ∧ (∀ i, IsR (a1 i)) ∧ (∀ i, IsR (a2 i)) ∧ (∀ i, IsR (a3 i)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

end Cert.Pre_finite_inputs.Reals

end
-- ==== Proof.RefWeights.lean ====
/-
  The reference's three weight matrices after their straight-through quantisation.  Each row is quantised against its
  own largest magnitude; the reference then forms  w + (q - w),  which is q because every weight is a real number.
-/
import proofs.«117782_j78151224918032_1_alg».proof.Proof.Gen.ReferenceIdeal.Read
import proofs.«117782_j78151224918032_1_alg».proof.Proof.Quant
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

namespace Cert.ReferenceIdeal.Stages

open Cert.ReferenceIdeal Cert.ReferenceIdeal.Read Idealize.ShloMosaic Idealize.ShloMosaic.ValueIdx Cert.Quant

/-- In a matrix, the index over row `j` with coordinate `k` inserted on the column axis is `(j, k)`. -/
theorem lift_row {R C : Nat} (h : (⟨2, ![R, C]⟩ : Shape).Reduces [1] (⟨1, ![R]⟩ : Shape)) (j : Fin R) (k : Fin C) :
    h.lift (ix1 j) k = ix2 j k := by
  funext c
  match c with
  | ⟨0, _⟩ => rfl
  | ⟨1, _⟩ => rfl

/-- The maximum of the magnitudes along the columns of a matrix, started from minus infinity, is at row `j` the largest
    magnitude of that row. -/
theorem rowmax_eq_amax {R C : Nat} (x : (⟨2, ![R, C]⟩ : Shape).Idx → EReal) (init : S_.Idx → EReal)
    (hinit : ∀ i, init i = cBot)
    (h' : (⟨2, ![R, C]⟩ : Shape).ReducesTo [1] (⟨1, ![R]⟩ : Shape))
    (h : (⟨2, ![R, C]⟩ : Shape).Reduces [1] (⟨1, ![R]⟩ : Shape)) (hu : 0 < S_.numel) (j : Fin R) :
    Host.reduce (FloatOps.maximumf (F := Ideal) (φ := .f32)) (fun i => FloatOps.hostAbsf (F := Ideal) (φ := .f32) (x i)) init h' hu (ix1 j)
      = amax (fun k : Fin C => x (ix2 j k)) := by
  refine (Host.reduce_eq_fold_single _ _ _ h' h hu (ix1 j)).trans ?_
  rw [hinit]
  have e : ((fun i => FloatOps.hostAbsf (F := Ideal) (φ := .f32) (x i)) ∘ h.lift (ix1 j)) = fun k : Fin C => absE (x (ix2 j k)) := by
    funext k
    show FloatOps.hostAbsf (F := Ideal) (φ := .f32) (x (h.lift (ix1 j) k)) = absE (x (ix2 j k))
    rw [lift_row h j k]
    rfl
  rw [e]
  rfl

/-! ## The gate weights -/

/-- The gate weights' row maxima: row `j`'s is the largest magnitude of that row. -/
theorem gate_rowmax (a1 : (⟨S11008x4096, .f32⟩ : BufTy).Contents (Elt Ideal)) (j : Fin 11008) :
    val_main_v13 (F := Ideal) a1 (ix1 j) = amax (fun k : Fin 4096 => a1 (ix2 j k)) :=
  rowmax_eq_amax a1 _ (fun i => rfl) Gen.reducesTo_S11008x4096_S11008_d1 (by decide) Gen.h_S_ j

/-- The gate weights' steps: row `j`'s is its largest magnitude over 127, plus the small constant. -/
theorem gate_scale (a1 : (⟨S11008x4096, .f32⟩ : BufTy).Contents (Elt Ideal)) (j : Fin 11008) :
    val_main_v18 (F := Ideal) a1 (ix2 j (0 : Fin 1)) = scale (amax (fun k : Fin 4096 => a1 (ix2 j k))) := by
  rw [val_main_v18_apply, val_main_v16_apply, val_main_v14_apply, val_main_v15_apply, val_main_v17_apply, val_main_cst_5_apply, val_main_cst_6_apply,
    show idx_main_v14 (ix2 j (0 : Fin 1)) = ix1 j from funext fun a => Fin.ext (by match a with | ⟨0, _⟩ => rfl),
    gate_rowmax]
  rfl

/-- The step as the divisor of entry `(j, k)`. -/
theorem gate_scale_div (a1 : (⟨S11008x4096, .f32⟩ : BufTy).Contents (Elt Ideal)) (j : Fin 11008) (k : Fin 4096) :
    val_main_v19 (F := Ideal) a1 (ix2 j k) = scale (amax (fun k : Fin 4096 => a1 (ix2 j k))) := by
  rw [val_main_v19_apply,
    show idx_main_v19 (ix2 j k) = ix2 j (0 : Fin 1) from
      funext fun a => Fin.ext (by match a with | ⟨0, _⟩ => rfl | ⟨1, _⟩ => rfl),
    gate_scale]

/-- The step as the multiplier of entry `(j, k)`. -/
theorem gate_scale_mul (a1 : (⟨S11008x4096, .f32⟩ : BufTy).Contents (Elt Ideal)) (j : Fin 11008) (k : Fin 4096) :
    val_main_v23 (F := Ideal) a1 (ix2 j k) = scale (amax (fun k : Fin 4096 => a1 (ix2 j k))) := by
  rw [val_main_v23_apply,
    show idx_main_v23 (ix2 j k) = ix2 j (0 : Fin 1) from
      funext fun a => Fin.ext (by match a with | ⟨0, _⟩ => rfl | ⟨1, _⟩ => rfl),
    gate_scale]

/-- The gate weights, row `j` quantised against that row's largest magnitude. -/
theorem gate_weights (a1 : (⟨S11008x4096, .f32⟩ : BufTy).Contents (Elt Ideal)) (h1 : ∀ i, IsR (a1 i)) (j : Fin 11008) (k : Fin 4096) :
    val_main_v26 (F := Ideal) a1 (ix2 j k) = fqAll (fun k : Fin 4096 => a1 (ix2 j k)) k := by
  rw [val_main_v26_apply, val_main_v25_apply, val_main_v24_apply, gate_scale_mul, val_main_v22_apply,
    val_main_call3_v4_apply, val_main_call3_v3_apply, val_main_cst_8_apply,
    val_main_call3_v2_apply, val_main_call3_v1_apply, val_main_call3_v0_apply, val_main_cst_7_apply,
    val_main_v21_apply, val_main_v20_apply, gate_scale_div]
  exact add_sub_cancel_of_isR (h1 _) _

/-! ## The up weights -/

/-- The up weights' row maxima: row `j`'s is the largest magnitude of that row. -/
theorem up_rowmax (a2 : (⟨S11008x4096, .f32⟩ : BufTy).Contents (Elt Ideal)) (j : Fin 11008) :
    val_main_v28 (F := Ideal) a2 (ix1 j) = amax (fun k : Fin 4096 => a2 (ix2 j k)) :=
  rowmax_eq_amax a2 _ (fun i => rfl) Gen.reducesTo_S11008x4096_S11008_d1 (by decide) Gen.h_S_ j

/-- The up weights' steps: row `j`'s is its largest magnitude over 127, plus the small constant. -/
theorem up_scale (a2 : (⟨S11008x4096, .f32⟩ : BufTy).Contents (Elt Ideal)) (j : Fin 11008) :
    val_main_v33 (F := Ideal) a2 (ix2 j (0 : Fin 1)) = scale (amax (fun k : Fin 4096 => a2 (ix2 j k))) := by
  rw [val_main_v33_apply, val_main_v31_apply, val_main_v29_apply, val_main_v30_apply, val_main_v32_apply, val_main_cst_10_apply, val_main_cst_11_apply,
    show idx_main_v29 (ix2 j (0 : Fin 1)) = ix1 j from funext fun a => Fin.ext (by match a with | ⟨0, _⟩ => rfl),
    up_rowmax]
  rfl

/-- The step as the divisor of entry `(j, k)`. -/
theorem up_scale_div (a2 : (⟨S11008x4096, .f32⟩ : BufTy).Contents (Elt Ideal)) (j : Fin 11008) (k : Fin 4096) :
    val_main_v34 (F := Ideal) a2 (ix2 j k) = scale (amax (fun k : Fin 4096 => a2 (ix2 j k))) := by
  rw [val_main_v34_apply,
    show idx_main_v34 (ix2 j k) = ix2 j (0 : Fin 1) from
      funext fun a => Fin.ext (by match a with | ⟨0, _⟩ => rfl | ⟨1, _⟩ => rfl),
    up_scale]

/-- The step as the multiplier of entry `(j, k)`. -/
theorem up_scale_mul (a2 : (⟨S11008x4096, .f32⟩ : BufTy).Contents (Elt Ideal)) (j : Fin 11008) (k : Fin 4096) :
    val_main_v38 (F := Ideal) a2 (ix2 j k) = scale (amax (fun k : Fin 4096 => a2 (ix2 j k))) := by
  rw [val_main_v38_apply,
    show idx_main_v38 (ix2 j k) = ix2 j (0 : Fin 1) from
      funext fun a => Fin.ext (by match a with | ⟨0, _⟩ => rfl | ⟨1, _⟩ => rfl),
    up_scale]

/-- The up weights, likewise. -/
theorem up_weights (a2 : (⟨S11008x4096, .f32⟩ : BufTy).Contents (Elt Ideal)) (h2 : ∀ i, IsR (a2 i)) (j : Fin 11008) (k : Fin 4096) :
    val_main_v41 (F := Ideal) a2 (ix2 j k) = fqAll (fun k : Fin 4096 => a2 (ix2 j k)) k := by
  rw [val_main_v41_apply, val_main_v40_apply, val_main_v39_apply, up_scale_mul, val_main_v37_apply,
    val_main_call5_v4_apply, val_main_call5_v3_apply, val_main_cst_13_apply,
    val_main_call5_v2_apply, val_main_call5_v1_apply, val_main_call5_v0_apply, val_main_cst_12_apply,
    val_main_v36_apply, val_main_v35_apply, up_scale_div]
  exact add_sub_cancel_of_isR (h2 _) _

/-! ## The down weights -/

/-- The down weights' row maxima: row `n`'s is the largest magnitude of that row. -/
theorem down_rowmax (a3 : (⟨S4096x11008, .f32⟩ : BufTy).Contents (Elt Ideal)) (n : Fin 4096) :
    val_main_v59 (F := Ideal) a3 (ix1 n) = amax (fun k : Fin 11008 => a3 (ix2 n k)) :=
  rowmax_eq_amax a3 _ (fun i => rfl) Gen.reducesTo_S4096x11008_S4096_d1 (by decide) Gen.h_S_ n

/-- The down weights' steps: row `n`'s is its largest magnitude over 127, plus the small constant. -/
theorem down_scale (a3 : (⟨S4096x11008, .f32⟩ : BufTy).Contents (Elt Ideal)) (n : Fin 4096) :
    val_main_v64 (F := Ideal) a3 (ix2 n (0 : Fin 1)) = scale (amax (fun k : Fin 11008 => a3 (ix2 n k))) := by
  rw [val_main_v64_apply, val_main_v62_apply, val_main_v60_apply, val_main_v61_apply, val_main_v63_apply, val_main_cst_20_apply, val_main_cst_21_apply,
    show idx_main_v60 (ix2 n (0 : Fin 1)) = ix1 n from funext fun a => Fin.ext (by match a with | ⟨0, _⟩ => rfl),
    down_rowmax]
  rfl

/-- The step as the divisor of entry `(n, k)`. -/
theorem down_scale_div (a3 : (⟨S4096x11008, .f32⟩ : BufTy).Contents (Elt Ideal)) (n : Fin 4096) (k : Fin 11008) :
    val_main_v65 (F := Ideal) a3 (ix2 n k) = scale (amax (fun k : Fin 11008 => a3 (ix2 n k))) := by
  rw [val_main_v65_apply,
    show idx_main_v65 (ix2 n k) = ix2 n (0 : Fin 1) from
      funext fun a => Fin.ext (by match a with | ⟨0, _⟩ => rfl | ⟨1, _⟩ => rfl),
    down_scale]

/-- The step as the multiplier of entry `(n, k)`. -/
theorem down_scale_mul (a3 : (⟨S4096x11008, .f32⟩ : BufTy).Contents (Elt Ideal)) (n : Fin 4096) (k : Fin 11008) :
    val_main_v69 (F := Ideal) a3 (ix2 n k) = scale (amax (fun k : Fin 11008 => a3 (ix2 n k))) := by
  rw [val_main_v69_apply,
    show idx_main_v69 (ix2 n k) = ix2 n (0 : Fin 1) from
      funext fun a => Fin.ext (by match a with | ⟨0, _⟩ => rfl | ⟨1, _⟩ => rfl),
    down_scale]

/-- The down weights, likewise. -/
theorem down_weights (a3 : (⟨S4096x11008, .f32⟩ : BufTy).Contents (Elt Ideal)) (h3 : ∀ i, IsR (a3 i)) (n : Fin 4096) (k : Fin 11008) :
    val_main_v72 (F := Ideal) a3 (ix2 n k) = fqAll (fun k : Fin 11008 => a3 (ix2 n k)) k := by
  rw [val_main_v72_apply, val_main_v71_apply, val_main_v70_apply, down_scale_mul, val_main_v68_apply,
    val_main_call10_v4_apply, val_main_call10_v3_apply, val_main_cst_23_apply,
    val_main_call10_v2_apply, val_main_call10_v1_apply, val_main_call10_v0_apply, val_main_cst_22_apply,
    val_main_v67_apply, val_main_v66_apply, down_scale_div]
  exact add_sub_cancel_of_isR (h3 _) _

end Cert.ReferenceIdeal.Stages

end
-- ==== Proof.RefActs.lean ====
/-
  The reference's activation path.  The activations are quantised as a whole (straight-through:  x + (q - x) = q  for
  real x), multiplied into the quantised gate and up weights, combined as silu(gate) * up, quantised as a whole again
  (the hidden entries are real because everything they are made of is), and multiplied into the quantised down
  weights: the quantised gated MLP over the 8 × 32 rows of the activations.
-/
import proofs.«117782_j78151224918032_1_alg».proof.Proof.Gen.ReferenceIdeal.Read
import proofs.«117782_j78151224918032_1_alg».proof.Proof.Quant
import proofs.«117782_j78151224918032_1_alg».proof.Proof.RefWeights
import Idealize.ShloMosaic.Lib.ValueIdx
import Idealize.ShloMosaic.Lib.Pipeline.Value
import Idealize.ShloMosaic.Lib.IdealHost
import Idealize.ShloMosaic.PureOps.Reduce
import Idealize.ShloMosaic.PureOps.Ideal.Laws

set_option maxRecDepth 16384

noncomputable section

namespace Cert.ReferenceIdeal.Stages

open Cert.ReferenceIdeal Cert.ReferenceIdeal.Read Idealize.ShloMosaic Idealize.ShloMosaic.ValueIdx Cert.Quant

/-! ## The two whole-array maxima -/

/-- A maximum over all three axes into the scalar shape runs over every index: each one drops to the one scalar index. -/
theorem act_amax (a0 : (⟨S8x32x4096, .f32⟩ : BufTy).Contents (Elt Ideal)) (j : S_.Idx) :
    val_main_v1 (F := Ideal) a0 j = amax (a0 : S8x32x4096.Idx → EReal) := by
  unfold val_main_v1
  rw [Host.reduce_eq_fold, Finset.filter_true_of_mem (fun i _ => funext fun a => a.elim0)]
  rfl

/-- The activations' step: their largest magnitude over 127, plus the small constant. -/
theorem act_scale (a0 : (⟨S8x32x4096, .f32⟩ : BufTy).Contents (Elt Ideal)) (j : S_.Idx) :
    val_main_v3 (F := Ideal) a0 j = scale (amax (a0 : S8x32x4096.Idx → EReal)) := by
  rw [val_main_v3_apply, val_main_v2_apply, val_main_cst_0_apply, val_main_cst_1_apply, act_amax]
  rfl

/-- The activations after their straight-through quantisation: each entry quantised against the largest magnitude of all. -/
theorem act_quant (a0 : (⟨S8x32x4096, .f32⟩ : BufTy).Contents (Elt Ideal)) (h0 : ∀ i, IsR (a0 i)) (i : S8x32x4096.Idx) :
    val_main_v11 (F := Ideal) a0 i = fqAll (a0 : S8x32x4096.Idx → EReal) i := by
  rw [val_main_v11_apply, val_main_v10_apply, val_main_v9_apply, val_main_v8_apply, val_main_v7_apply,
    val_main_call1_v4_apply, val_main_call1_v3_apply, val_main_cst_3_apply, val_main_call1_v2_apply,
    val_main_call1_v1_apply, val_main_call1_v0_apply, val_main_cst_2_apply, val_main_v6_apply, val_main_v5_apply,
    val_main_v4_apply, act_scale]
  exact add_sub_cancel_of_isR (h0 i) (fqAll (a0 : S8x32x4096.Idx → EReal) i)

/-! ## The hidden layer -/

/-- The two products read the activations at row (b, s) and the weights at row j. -/
theorem lidx42 (b : Fin 8) (s : Fin 32) (j : Fin 11008) (k : Fin 4096) : lidx_main_v42 (ix3 b s j) k = ix3 b s k :=
  funext fun a => Fin.ext (by match a with | ⟨0, _⟩ => rfl | ⟨1, _⟩ => rfl | ⟨2, _⟩ => rfl)
theorem ridx42 (b : Fin 8) (s : Fin 32) (j : Fin 11008) (k : Fin 4096) : ridx_main_v42 (ix3 b s j) k = ix2 j k :=
  funext fun a => Fin.ext (by match a with | ⟨0, _⟩ => rfl | ⟨1, _⟩ => rfl)
theorem lidx43 (b : Fin 8) (s : Fin 32) (j : Fin 11008) (k : Fin 4096) : lidx_main_v43 (ix3 b s j) k = ix3 b s k :=
  funext fun a => Fin.ext (by match a with | ⟨0, _⟩ => rfl | ⟨1, _⟩ => rfl | ⟨2, _⟩ => rfl)
theorem ridx43 (b : Fin 8) (s : Fin 32) (j : Fin 11008) (k : Fin 4096) : ridx_main_v43 (ix3 b s j) k = ix2 j k :=
  funext fun a => Fin.ext (by match a with | ⟨0, _⟩ => rfl | ⟨1, _⟩ => rfl)

/-- The gate product: the quantised activation row against the quantised gate row. -/
theorem gate_dot (a0 : (⟨S8x32x4096, .f32⟩ : BufTy).Contents (Elt Ideal)) (a1 : (⟨S11008x4096, .f32⟩ : BufTy).Contents (Elt Ideal))
    (h0 : ∀ i, IsR (a0 i)) (h1 : ∀ i, IsR (a1 i)) (b : Fin 8) (s : Fin 32) (j : Fin 11008) :
    val_main_v42 (F := Ideal) a0 a1 (ix3 b s j)
      = dot (fun k : Fin 4096 => fqAll (a0 : S8x32x4096.Idx → EReal) (ix3 b s k)) (fqAll (fun k : Fin 4096 => a1 (ix2 j k))) := by
  rw [val_main_v42_apply]
  refine Finset.sum_congr rfl fun k _ => ?_
  rw [lidx42, ridx42, act_quant a0 h0, gate_weights a1 h1]

/-- The up product, likewise. -/
theorem up_dot (a0 : (⟨S8x32x4096, .f32⟩ : BufTy).Contents (Elt Ideal)) (a2 : (⟨S11008x4096, .f32⟩ : BufTy).Contents (Elt Ideal))
    (h0 : ∀ i, IsR (a0 i)) (h2 : ∀ i, IsR (a2 i)) (b : Fin 8) (s : Fin 32) (j : Fin 11008) :
    val_main_v43 (F := Ideal) a0 a2 (ix3 b s j)
      = dot (fun k : Fin 4096 => fqAll (a0 : S8x32x4096.Idx → EReal) (ix3 b s k)) (fqAll (fun k : Fin 4096 => a2 (ix2 j k))) := by
  rw [val_main_v43_apply]
  refine Finset.sum_congr rfl fun k _ => ?_
  rw [lidx43, ridx43, act_quant a0 h0, up_weights a2 h2]

/-- The float word of one. -/
theorem one_word : FloatOps.ofBits (F := Ideal) .f32 0x3F800000#32 = (1 : EReal) := Ideal.ofBits_one_f32

/-- The hidden layer before its quantisation, entry by entry. -/
theorem hidden_entry (a0 : (⟨S8x32x4096, .f32⟩ : BufTy).Contents (Elt Ideal)) (a1 a2 : (⟨S11008x4096, .f32⟩ : BufTy).Contents (Elt Ideal))
    (h0 : ∀ i, IsR (a0 i)) (h1 : ∀ i, IsR (a1 i)) (h2 : ∀ i, IsR (a2 i)) (b : Fin 8) (s : Fin 32) (j : Fin 11008) :
    val_main_v45 (F := Ideal) a0 a1 a2 (ix3 b s j)
      = hEntry (fun k : Fin 4096 => fqAll (a0 : S8x32x4096.Idx → EReal) (ix3 b s k)) (fun k : Fin 4096 => a1 (ix2 j k)) (fun k : Fin 4096 => a2 (ix2 j k)) := by
  rw [val_main_v45_apply, val_main_v44_apply, val_main_call6_v5_apply, val_main_call6_v4_apply, val_main_call6_cst_0_apply,
    val_main_call6_v3_apply, val_main_call6_v2_apply, val_main_call6_cst_apply, val_main_call6_v1_apply,
    val_main_call6_v0_apply, gate_dot a0 a1 h0 h1, up_dot a0 a2 h0 h2, one_word]
  rfl

/-- Every hidden entry is a real number. -/
theorem isR_hidden (a0 : (⟨S8x32x4096, .f32⟩ : BufTy).Contents (Elt Ideal)) (a1 a2 : (⟨S11008x4096, .f32⟩ : BufTy).Contents (Elt Ideal))
    (h0 : ∀ i, IsR (a0 i)) (h1 : ∀ i, IsR (a1 i)) (h2 : ∀ i, IsR (a2 i)) (i : S8x32x11008.Idx) :
    IsR (val_main_v45 (F := Ideal) a0 a1 a2 i) := by
  obtain ⟨b, s, j, rfl⟩ : ∃ (b : Fin 8) (s : Fin 32) (j : Fin 11008), i = ix3 b s j := ⟨_, _, _, eq_ix3 i⟩
  haveI : NeZero 4096 := ⟨by decide⟩
  haveI : Nonempty S8x32x4096.Idx := ⟨ix3 0 0 0⟩
  rw [hidden_entry a0 a1 a2 h0 h1 h2]
  exact isR_hEntry (fun k => isR_fqAll h0 _) (fun k => h1 _) (fun k => h2 _)

/-- The hidden layer's largest magnitude. -/
theorem hid_amax (a0 : (⟨S8x32x4096, .f32⟩ : BufTy).Contents (Elt Ideal)) (a1 a2 : (⟨S11008x4096, .f32⟩ : BufTy).Contents (Elt Ideal)) (j : S_.Idx) :
    val_main_v47 (F := Ideal) a0 a1 a2 j = amax (val_main_v45 (F := Ideal) a0 a1 a2 : S8x32x11008.Idx → EReal) := by
  unfold val_main_v47
  rw [Host.reduce_eq_fold, Finset.filter_true_of_mem (fun i _ => funext fun a => a.elim0)]
  rfl

/-- The hidden layer's step. -/
theorem hid_scale (a0 : (⟨S8x32x4096, .f32⟩ : BufTy).Contents (Elt Ideal)) (a1 a2 : (⟨S11008x4096, .f32⟩ : BufTy).Contents (Elt Ideal)) (j : S_.Idx) :
    val_main_v49 (F := Ideal) a0 a1 a2 j = scale (amax (val_main_v45 (F := Ideal) a0 a1 a2 : S8x32x11008.Idx → EReal)) := by
  rw [val_main_v49_apply, val_main_v48_apply, val_main_cst_15_apply, val_main_cst_16_apply, hid_amax]
  rfl

/-- The hidden layer after its straight-through quantisation. -/
theorem hidden_quant (a0 : (⟨S8x32x4096, .f32⟩ : BufTy).Contents (Elt Ideal)) (a1 a2 : (⟨S11008x4096, .f32⟩ : BufTy).Contents (Elt Ideal))
    (h0 : ∀ i, IsR (a0 i)) (h1 : ∀ i, IsR (a1 i)) (h2 : ∀ i, IsR (a2 i)) (i : S8x32x11008.Idx) :
    val_main_v57 (F := Ideal) a0 a1 a2 i = fqAll (val_main_v45 (F := Ideal) a0 a1 a2 : S8x32x11008.Idx → EReal) i := by
  rw [val_main_v57_apply, val_main_v56_apply, val_main_v55_apply, val_main_v54_apply, val_main_v53_apply,
    val_main_call8_v4_apply, val_main_call8_v3_apply, val_main_cst_18_apply, val_main_call8_v2_apply,
    val_main_call8_v1_apply, val_main_call8_v0_apply, val_main_cst_17_apply, val_main_v52_apply, val_main_v51_apply,
    val_main_v50_apply, hid_scale]
  exact add_sub_cancel_of_isR (isR_hidden a0 a1 a2 h0 h1 h2 i) (fqAll (val_main_v45 (F := Ideal) a0 a1 a2 : S8x32x11008.Idx → EReal) i)

/-! ## The result -/

/-- The rows (b, s) with a column are the indices of the three-axis array. -/
def rowEquiv (N : ℕ) : (Fin 8 × Fin 32) × Fin N ≃ (⟨3, ![8, 32, N]⟩ : Shape).Idx where
  toFun p := ix3 p.1.1 p.1.2 p.2
  invFun i := ((i 0, i 1), i 2)
  left_inv p := rfl
  right_inv i := (eq_ix3 i).symm

theorem lidx73 (b : Fin 8) (s : Fin 32) (n : Fin 4096) (k : Fin 11008) : lidx_main_v73 (ix3 b s n) k = ix3 b s k :=
  funext fun a => Fin.ext (by match a with | ⟨0, _⟩ => rfl | ⟨1, _⟩ => rfl | ⟨2, _⟩ => rfl)
theorem ridx73 (b : Fin 8) (s : Fin 32) (n : Fin 4096) (k : Fin 11008) : ridx_main_v73 (ix3 b s n) k = ix2 n k :=
  funext fun a => Fin.ext (by match a with | ⟨0, _⟩ => rfl | ⟨1, _⟩ => rfl)

/-- The hidden layer of the specification, over rows and columns, is the reference's hidden array re-indexed. -/
theorem hidden_fun (a0 : (⟨S8x32x4096, .f32⟩ : BufTy).Contents (Elt Ideal)) (a1 a2 : (⟨S11008x4096, .f32⟩ : BufTy).Contents (Elt Ideal))
    (h0 : ∀ i, IsR (a0 i)) (h1 : ∀ i, IsR (a1 i)) (h2 : ∀ i, IsR (a2 i)) :
    (fun p : (Fin 8 × Fin 32) × Fin 11008 =>
        Cert.Quant.hidden (fun (r : Fin 8 × Fin 32) (k : Fin 4096) => a0 (ix3 r.1 r.2 k)) (fun (j : Fin 11008) (k : Fin 4096) => a1 (ix2 j k))
          (fun (j : Fin 11008) (k : Fin 4096) => a2 (ix2 j k)) p.1 p.2)
      = fun p => (val_main_v45 (F := Ideal) a0 a1 a2 : S8x32x11008.Idx → EReal) (rowEquiv 11008 p) := by
  funext p
  refine Eq.trans ?_ (hidden_entry a0 a1 a2 h0 h1 h2 p.1.1 p.1.2 p.2).symm
  unfold Cert.Quant.hidden
  exact congrArg (fun xr : Fin 4096 → EReal => hEntry xr (fun k : Fin 4096 => a1 (ix2 p.2 k)) (fun k : Fin 4096 => a2 (ix2 p.2 k)))
    (funext fun k => fqAll_equiv (rowEquiv 4096) (a0 : S8x32x4096.Idx → EReal) (p.1, k))

/-- The reference's result is the quantised gated MLP over the rows (b, s). -/
theorem ref_value (a0 : (⟨S8x32x4096, .f32⟩ : BufTy).Contents (Elt Ideal)) (a1 a2 : (⟨S11008x4096, .f32⟩ : BufTy).Contents (Elt Ideal))
    (a3 : (⟨S4096x11008, .f32⟩ : BufTy).Contents (Elt Ideal))
    (h0 : ∀ i, IsR (a0 i)) (h1 : ∀ i, IsR (a1 i)) (h2 : ∀ i, IsR (a2 i)) (h3 : ∀ i, IsR (a3 i)) (b : Fin 8) (s : Fin 32) (n : Fin 4096) :
    val_main_v73 (F := Ideal) a0 a1 a2 a3 (ix3 b s n)
      = mlp (fun (r : Fin 8 × Fin 32) (k : Fin 4096) => a0 (ix3 r.1 r.2 k)) (fun (j : Fin 11008) (k : Fin 4096) => a1 (ix2 j k))
          (fun (j : Fin 11008) (k : Fin 4096) => a2 (ix2 j k)) (fun (n : Fin 4096) (k : Fin 11008) => a3 (ix2 n k)) (b, s) n := by
  rw [val_main_v73_apply]
  unfold Cert.Quant.mlp Cert.Quant.dEntry Cert.Quant.dot
  rw [hidden_fun a0 a1 a2 h0 h1 h2]
  refine Finset.sum_congr rfl fun k _ => ?_
  rw [lidx73, ridx73, hidden_quant a0 a1 a2 h0 h1 h2, down_weights a3 h3]
  exact congrArg (· * fqAll (fun k : Fin 11008 => a3 (ix2 n k)) k)
    (fqAll_equiv (rowEquiv 11008) (val_main_v45 (F := Ideal) a0 a1 a2 : S8x32x11008.Idx → EReal) ((b, s), k)).symm

end Cert.ReferenceIdeal.Stages

end
-- ==== Proof.lean ====
/-
  A fake-int8 gated MLP in two kernels against its plain reference, equal over the extended reals.

  Both programs compute  out = hq · wdqᵀ  with  h = silu(xq · wgqᵀ) * (xq · wuqᵀ),  where xq and hq are the activations
  and the hidden matrix quantised as a whole (one scale: largest magnitude / 127 + ε; an entry x becomes
  clip(round(x / s), -128, 127) * s) and wgq, wuq, wdq are the weights quantised row by row.  The kernel program reshapes
  the activations to 256 rows, quantises on the host, computes the hidden matrix in 43 column blocks and the output in 32
  column blocks, each block quantising its own rows of the weights, and reshapes back.  The reference works on 8 × 32 rows
  and writes every quantisation straight-through,  v + (q - v).

  Three things make the two sides one function.  A change of float format is the identity, so the kernels' bf16 operands
  are their f32 values.  A maximum does not depend on the order or the shape it is taken in, so the whole-matrix scales
  agree across the reshape and a row's scale is the same inside a block as inside the whole matrix.  And  v + (q - v) = q
  whenever v is a real number: the inputs are real by the precondition, and the hidden entries are real because a clipped
  value is real whatever is clipped, so every quantised entry, every inner product and every silu of them is real.

  The frames of the two kernel programs are the generated ones; the reference's frame is its generated run with the
  result dropped; the idealization rewrote nothing, so there is nothing to preserve.
-/
import proofs.«117782_j78151224918032_1_alg».proof.Defs
import proofs.«117782_j78151224918032_1_alg».proof.Proof.Gen.Kernel
import proofs.«117782_j78151224918032_1_alg».proof.Proof.Gen.Kernel.Skeleton
import proofs.«117782_j78151224918032_1_alg».proof.Proof.Gen.Kernel.Launch
import proofs.«117782_j78151224918032_1_alg».proof.Proof.Gen.Kernel.Points
import proofs.«117782_j78151224918032_1_alg».proof.Proof.Gen.Kernel.Frame
import proofs.«117782_j78151224918032_1_alg».proof.Proof.Gen.KernelIdeal
import proofs.«117782_j78151224918032_1_alg».proof.Proof.Gen.KernelIdeal.Skeleton
import proofs.«117782_j78151224918032_1_alg».proof.Proof.Gen.KernelIdeal.Launch
import proofs.«117782_j78151224918032_1_alg».proof.Proof.Gen.KernelIdeal.Points
import proofs.«117782_j78151224918032_1_alg».proof.Proof.Gen.KernelIdeal.Frame
import proofs.«117782_j78151224918032_1_alg».proof.Proof.Gen.ReferenceIdeal
import proofs.«117782_j78151224918032_1_alg».proof.Proof.Gen.ReferenceIdeal.Run
import proofs.«117782_j78151224918032_1_alg».proof.Proof.Gen.ReferenceIdeal.Read
import proofs.«117782_j78151224918032_1_alg».proof.Proof.Gen.Pre_finite_inputs
import proofs.«117782_j78151224918032_1_alg».proof.Proof.KernelRun
import proofs.«117782_j78151224918032_1_alg».proof.Proof.KernelValue
import proofs.«117782_j78151224918032_1_alg».proof.Proof.InputsReal
import proofs.«117782_j78151224918032_1_alg».proof.Proof.RefActs
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the quantised gated MLP of the same real inputs over the rows (b, s). -/
theorem algebraic : Cert.algebraic_KernelIdeal_ReferenceIdeal := by
  intro m ρ m' ρ' hpre hagree
  refine ⟨fun c => Cert.KernelIdeal.Gen.W13 m ρ c (Proc.devRef .tc Cert.KernelIdeal.main_v25), Cert.KernelIdeal.GenRun.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, (hagree c).1, (hagree c).2.1, (hagree c).2.2.1, (hagree c).2.2.2]
  obtain ⟨r0, r1, r2, r3⟩ := Cert.Pre_finite_inputs.Reals.inputs_real _ _ _ _ (hpre c)
  funext i
  obtain ⟨b, s, n, rfl⟩ : ∃ (b : Fin 8) (s : Fin 32) (n : Fin 4096), i = ix3 b s n := ⟨i 0, i 1, i 2, eq_ix3 i⟩
  rw [Cert.ReferenceIdeal.Stages.ref_value _ _ _ _ r0 r1 r2 r3 b s n]
  exact (Cert.KernelIdeal.Whole.result_entry m ρ c b s n).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
